-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x128 : Shape := ⟨3, ![64, 512, 128]⟩
abbrev S64x512 : Shape := ⟨2, ![64, 512]⟩
abbrev S2x1000000 : Shape := ⟨2, ![2, 1000000]⟩
abbrev S128x1 : Shape := ⟨2, ![128, 1]⟩
abbrev S1 : Shape := ⟨1, ![1]⟩
abbrev S_ : Shape := ⟨0, ![]⟩

class Facts : Prop where
  bcast_S_S64x512x128 : S_.BroadcastsInDim S64x512x128 (![] : Fin 0 → Fin S64x512x128.rank)
  reducesTo_S64x512x128_S_d0_1_2 : S64x512x128.ReducesTo [0, 1, 2] S_
  h_S_ : 0 < S_.numel
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S64x512x128 .f32) (main_arg1 : IVec S64x512 1) (main_arg2 : IVec S2x1000000 32) (main_arg3 : IVec S2x1000000 32) (main_arg4 : FVec F S128x1 .f32) (main_arg5 : FVec F S1 .f32) : IVec S_ 1 :=
  let main_v0 : FVec F S64x512x128 .f32 := Host.absf main_arg0
  let main_cst : FVec F S_ .f32 := constant S_ .f32 0x7F800000#32
  let main_v1 : FVec F S64x512x128 .f32 := broadcastInDim S64x512x128 ![] bcast_S_S64x512x128 main_cst
  let main_v2 : IVec S64x512x128 1 := cmpf .olt main_v0 main_v1
  let main_c : IVec S_ 1 := constantI S_ 1 1#1
  let main_v3 : IVec S_ 1 := (fun x v => Host.reduce IntOp.andi x v reducesTo_S64x512x128_S_d0_1_2 h_S_) main_v2 main_c
  let main_v4 : FVec F S128x1 .f32 := Host.absf main_arg4
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : IVec S_ 1 := andi main_v3 main_v7
  let main_v9 : FVec F S1 .f32 := Host.absf main_arg5
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S64x512x128 : Shape := ⟨3, ![64, 512, 128]⟩
abbrev S64x512 : Shape := ⟨2, ![64, 512]⟩
abbrev S2x1000000 : Shape := ⟨2, ![2, 1000000]⟩
abbrev S128x1 : Shape := ⟨2, ![128, 1]⟩
abbrev S1 : Shape := ⟨1, ![1]⟩
abbrev S32768x128 : Shape := ⟨2, ![32768, 128]⟩
abbrev S2x2000000 : Shape := ⟨2, ![2, 2000000]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S1x128 : Shape := ⟨2, ![1, 128]⟩
abbrev S1x1 : Shape := ⟨2, ![1, 1]⟩
abbrev S3200x1 : Shape := ⟨2, ![3200, 1]⟩
abbrev S1x3200 : Shape := ⟨2, ![1, 3200]⟩
abbrev S6400x128 : Shape := ⟨2, ![6400, 128]⟩
abbrev S6400x1 : Shape := ⟨2, ![6400, 1]⟩
abbrev S512x128 : Shape := ⟨2, ![512, 128]⟩
abbrev S1x512 : Shape := ⟨2, ![1, 512]⟩
abbrev S6400x512 : Shape := ⟨2, ![6400, 512]⟩
abbrev S3200x128 : Shape := ⟨2, ![3200, 128]⟩
abbrev S3200 : Shape := ⟨1, ![3200]⟩

abbrev nBuf : Space → Nat
  | .hbm => 49
  | .vmem => 10
  | .smem => 0
  | _ => 0

abbrev bufTy : (tb : Table) → Fin (tcTables nBuf tb) → BufTy
  | .hbm, ⟨0, _⟩ => ⟨S64x512x128, .f32⟩
  | .hbm, ⟨1, _⟩ => ⟨S64x512, .i1⟩
  | .hbm, ⟨2, _⟩ => ⟨S2x1000000, .i32⟩
  | .hbm, ⟨3, _⟩ => ⟨S2x1000000, .i32⟩
  | .hbm, ⟨4, _⟩ => ⟨S128x1, .f32⟩
  | .hbm, ⟨5, _⟩ => ⟨S1, .f32⟩
  | .hbm, ⟨6, _⟩ => ⟨S32768x128, .f32⟩
  | .hbm, ⟨7, _⟩ => ⟨S32768x128, .bf16⟩
  | .hbm, ⟨8, _⟩ => ⟨S2x2000000, .i32⟩
  | .hbm, ⟨9, _⟩ => ⟨S1x2000000, .i32⟩
  | .hbm, ⟨10, _⟩ => ⟨S2000000, .i32⟩
  | .hbm, ⟨11, _⟩ => ⟨S_, .i32⟩
  | .hbm, ⟨12, _⟩ => ⟨S2000000, .i32⟩
  | .hbm, ⟨13, _⟩ => ⟨S2000000, .i1⟩
  | .hbm, ⟨14, _⟩ => ⟨S_, .i32⟩
  | .hbm, ⟨15, _⟩ => ⟨S2000000, .i32⟩
  | .hbm, ⟨16, _⟩ => ⟨S2000000, .i32⟩
  | .hbm, ⟨17, _⟩ => ⟨S2000000, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S_, .i32⟩
  | .hbm, ⟨24, _⟩ => ⟨S2000000, .i32⟩
  | .hbm, ⟨25, _⟩ => ⟨S2000000, .i32⟩
  | .hbm, ⟨26, _⟩ => ⟨S2000000x1, .i32⟩
  | .hbm, ⟨27, _⟩ => ⟨S1x2000000, .i32⟩
  | .hbm, ⟨28, _⟩ => ⟨S2000000, .i32⟩
  | .hbm, ⟨29, _⟩ => ⟨S_, .i32⟩
  | .hbm, ⟨30, _⟩ => ⟨S2000000, .i32⟩
  | .hbm, ⟨31, _⟩ => ⟨S2000000, .i1⟩
  | .hbm, ⟨32, _⟩ => ⟨S_, .i32⟩
  | .hbm, ⟨33, _⟩ => ⟨S2000000, .i32⟩
  | .hbm, ⟨34, _⟩ => ⟨S2000000, .i32⟩
  | .hbm, ⟨35, _⟩ => ⟨S2000000, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S2000000, .i32⟩
  | .hbm, ⟨40, _⟩ => ⟨S2000000, .i32⟩
  | .hbm, ⟨41, _⟩ => ⟨S_, .i32⟩
  | .hbm, ⟨42, _⟩ => ⟨S2000000, .i32⟩
  | .hbm, ⟨43, _⟩ => ⟨S2000000, .i32⟩
  | .hbm, ⟨44, _⟩ => ⟨S2000000x1, .i32⟩
  | .hbm, ⟨45, _⟩ => ⟨S1x128, .f32⟩
  | .hbm, ⟨46, _⟩ => ⟨S1x1, .f32⟩
  | .hbm, ⟨47, _⟩ => ⟨S1x2000000, .f32⟩
  | .hbm, ⟨48, _⟩ => ⟨S2000000x1, .f32⟩
  | .local _ .vmem, ⟨0, _⟩ => ⟨S32768x128, .bf16⟩
  | .local _ .vmem, ⟨1, _⟩ => ⟨S3200x1, .i32⟩
  | .local _ .vmem, ⟨2, _⟩ => ⟨S3200x1, .i32⟩
  | .local _ .vmem, ⟨3, _⟩ => ⟨S3200x1, .i32⟩
  | .local _ .vmem, ⟨4, _⟩ => ⟨S3200x1, .i32⟩
  | .local _ .vmem, ⟨5, _⟩ => ⟨S1x128, .f32⟩
  | .local _ .vmem, ⟨6, _⟩ => ⟨S1x1, .f32⟩
  | .local _ .vmem, ⟨7, _⟩ => ⟨S1x3200, .f32⟩
  | .local _ .vmem, ⟨8, _⟩ => ⟨S1x3200, .f32⟩
  | .local _ .vmem, ⟨9, _⟩ => ⟨S6400x128, .f32⟩
  | _, _ => ⟨S64x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_c_2 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_c_6 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![625], ![false]⟩

@[reducible] def k0_t1_loop : Scf.Loop 32 :=
  let c0_i32 : BitVec 32 := 0#32
  let c64_i32 : BitVec 32 := 64#32
  let v9 : BitVec 32 := Scalar.addi c0_i32 c64_i32
  let c1_i32 : BitVec 32 := 1#32
  ⟨c0_i32, v9, c1_i32⟩
def k0_mult1 (k0_t1 : Fin k0_t1_loop.trips) : BitVec 32 :=
  let c0_i32_17 : BitVec 32 := 0#32
  let c0_i32 : BitVec 32 := 0#32
  let c1_i32 : BitVec 32 := 1#32
  let arg8 : BitVec 32 := Scf.iv c0_i32 c1_i32 k0_t1
  let c1_i32_16 : BitVec 32 := 1#32
  let v25 : BitVec 32 := Scalar.muli arg8 c1_i32_16
  let v26 : BitVec 32 := Scalar.addi c0_i32_17 v25
  let c512_i32 : BitVec 32 := 512#32
  let v27 : BitVec 32 := Scalar.muli v26 c512_i32
  v27
def k0_off1 (k0_t1 : Fin k0_t1_loop.trips) : Fin 2 → Nat :=
  let c0_i32_17 : BitVec 32 := 0#32
  let c0_i32 : BitVec 32 := 0#32
  let c1_i32 : BitVec 32 := 1#32
  let arg8 : BitVec 32 := Scf.iv c0_i32 c1_i32 k0_t1
  let c1_i32_16 : BitVec 32 := 1#32
  let v25 : BitVec 32 := Scalar.muli arg8 c1_i32_16
  let v26 : BitVec 32 := Scalar.addi c0_i32_17 v25
  let c512_i32 : BitVec 32 := 512#32
  let v27 : BitVec 32 := Scalar.muli v26 c512_i32
  let v28 : BitVec 32 := v27
  let v29 : Index := Scalar.indexCast v28
  let c0_18 : Index := 0#32
  ![v29.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32768x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3200x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x3200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x512x128_S32768x128 : S64x512x128.ShapeCasts S32768x128
  bitsLt_bf16_f32 : FTy.bits .bf16 < FTy.bits .f32
  concatenates_S2x1000000_S2x1000000_S2x2000000_d1 : Shape.Concatenates [S2x1000000, S2x1000000] S2x2000000 1
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  shapeCasts_S2000000_S2000000x1 : S2000000.ShapeCasts S2000000x1
  slices_S2x2000000_S1x2000000_1_0 : S2x2000000.Slices ![1, 0] S1x2000000
  shapeCasts_S128x1_S1x128 : S128x1.ShapeCasts S1x128
  shapeCasts_S1_S1x1 : S1.ShapeCasts S1x1
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  concatenates_S3200x1_S3200x1_S6400x1_d0 : Shape.Concatenates [S3200x1, S3200x1] S6400x1 0
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  h_S512x128 : 0 < S512x128.numel
  shapeCasts_S512x128_S512x128 : S512x128.ShapeCasts S512x128
  iota_S1x512_d1_w32 : S1x512.Iotas .tc 32 [1]
  broadcasts_S6400x1_S6400x512 : S6400x1.Broadcasts S6400x512
  broadcasts_S1x512_S6400x512 : S1x512.Broadcasts S6400x512
  natLt_1_32 : 1 < 32
  inb_S6400x128_S3200x128_0_0 : ∀ a, (![0, 0] : Fin 2 → Nat) a + S3200x128.size a ≤ S6400x128.size a
  h_S3200x128 : 0 < S3200x128.numel
  inb_S6400x128_S3200x128_3200_0 : ∀ a, (![3200, 0] : Fin 2 → Nat) a + S3200x128.size a ≤ S6400x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  reduces_S3200x128_S3200 : S3200x128.Reduces [1] S3200
  shapeCasts_S3200_S3200x1 : S3200.ShapeCasts S3200x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3200x1 : S1x1.Broadcasts S3200x1
  transposes_S3200x1_p1_0_S1x3200 : S3200x1.Transposes [1, 0] S1x3200
  inb_S1x3200_S1x3200_0_0 : ∀ a, (![0, 0] : Fin 2 → Nat) a + S1x3200.size a ≤ S1x3200.size a
  h_S1x3200 : 0 < S1x3200.numel
  transposes_S1x2000000_S2000000x1_1_0 : S1x2000000.Transposes [1, 0] S2000000x1
  dot_S6400x512_S512x128_S6400x128_1_0_0_1_n_n_wf : DotDims.WF S6400x512 S512x128 S6400x128 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x128.size a ≤ S32768x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32768x128.size a ≤ S32768x128.size a
  hwx0_0 : ∀ i : grid0.Coords, EltTy.bits .bf16 = 32 ∨ (Rect.block (s := S32768x128) S32768x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x1.size a ≤ S2000000x1.size a
  hwx0_1 : ∀ i : grid0.Coords, EltTy.bits .i32 = 32 ∨ (Rect.block (s := S2000000x1) S3200x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x1.size a ≤ S2000000x1.size a
  hwx0_2 : ∀ i : grid0.Coords, EltTy.bits .i32 = 32 ∨ (Rect.block (s := S2000000x1) S3200x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x3200.size a ≤ S1x2000000.size a
  hwx0_5 : ∀ i : grid0.Coords, EltTy.bits .f32 = 32 ∨ (Rect.block (s := S1x2000000) S1x3200.size (cc0_transform_5 i) (hinb0_5 i)).WholeWords (EltTy.packing .f32)

variable [Facts₀]

def dot_S6400x512_S512x128_S6400x128_1_0_0_1_n_n : DotDims S6400x512 S512x128 S6400x128 where
  lhsContracting := [1]
  rhsContracting := [0]
  lhsNonContracting := [0]
  rhsNonContracting := [1]
  lhsBatch := []
  rhsBatch := []
  wf := dot_S6400x512_S512x128_S6400x128_1_0_0_1_n_n_wf

abbrev win0_0 : Pipeline.Window sig grid0 :=
  Pipeline.Window.ofSpec (Memref.whole main_v1) S32768x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v11) S3200x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S3200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x3200.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x512x128 : Shape := ⟨3, ![64, 512, 128]⟩
abbrev S64x512 : Shape := ⟨2, ![64, 512]⟩
abbrev S2x1000000 : Shape := ⟨2, ![2, 1000000]⟩
abbrev S128x1 : Shape := ⟨2, ![128, 1]⟩
abbrev S1 : Shape := ⟨1, ![1]⟩
abbrev S32768x128 : Shape := ⟨2, ![32768, 128]⟩
abbrev S2x2000000 : Shape := ⟨2, ![2, 2000000]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x128 : Shape := ⟨2, ![2000000, 128]⟩
abbrev S1x1 : Shape := ⟨2, ![1, 1]⟩

abbrev nBuf : Space → Nat
  | .hbm => 35
  | .vmem => 0
  | .smem => 0
  | _ => 0

abbrev bufTy : (tb : Table) → Fin (tcTables nBuf tb) → BufTy
  | .hbm, ⟨0, _⟩ => ⟨S64x512x128, .f32⟩
  | .hbm, ⟨1, _⟩ => ⟨S64x512, .i1⟩
  | .hbm, ⟨2, _⟩ => ⟨S2x1000000, .i32⟩
  | .hbm, ⟨3, _⟩ => ⟨S2x1000000, .i32⟩
  | .hbm, ⟨4, _⟩ => ⟨S128x1, .f32⟩
  | .hbm, ⟨5, _⟩ => ⟨S1, .f32⟩
  | .hbm, ⟨6, _⟩ => ⟨S32768x128, .f32⟩
  | .hbm, ⟨7, _⟩ => ⟨S2x2000000, .i32⟩
  | .hbm, ⟨8, _⟩ => ⟨S1x2000000, .i32⟩
  | .hbm, ⟨9, _⟩ => ⟨S2000000, .i32⟩
  | .hbm, ⟨10, _⟩ => ⟨S_, .i32⟩
  | .hbm, ⟨11, _⟩ => ⟨S2000000, .i32⟩
  | .hbm, ⟨12, _⟩ => ⟨S2000000, .i1⟩
  | .hbm, ⟨13, _⟩ => ⟨S_, .i32⟩
  | .hbm, ⟨14, _⟩ => ⟨S2000000, .i32⟩
  | .hbm, ⟨15, _⟩ => ⟨S2000000, .i32⟩
  | .hbm, ⟨16, _⟩ => ⟨S2000000, .i32⟩
  | .hbm, ⟨17, _⟩ => ⟨S2000000x1, .i32⟩
  | .hbm, ⟨18, _⟩ => ⟨S2000000x128, .f32⟩
  | .hbm, ⟨19, _⟩ => ⟨S1x2000000, .i32⟩
  | .hbm, ⟨20, _⟩ => ⟨S2000000, .i32⟩
  | .hbm, ⟨21, _⟩ => ⟨S_, .i32⟩
  | .hbm, ⟨22, _⟩ => ⟨S2000000, .i32⟩
  | .hbm, ⟨23, _⟩ => ⟨S2000000, .i1⟩
  | .hbm, ⟨24, _⟩ => ⟨S_, .i32⟩
  | .hbm, ⟨25, _⟩ => ⟨S2000000, .i32⟩
  | .hbm, ⟨26, _⟩ => ⟨S2000000, .i32⟩
  | .hbm, ⟨27, _⟩ => ⟨S2000000, .i32⟩
  | .hbm, ⟨28, _⟩ => ⟨S2000000x1, .i32⟩
  | .hbm, ⟨29, _⟩ => ⟨S2000000x128, .f32⟩
  | .hbm, ⟨30, _⟩ => ⟨S2000000x128, .f32⟩
  | .hbm, ⟨31, _⟩ => ⟨S2000000x1, .f32⟩
  | .hbm, ⟨32, _⟩ => ⟨S1x1, .f32⟩
  | .hbm, ⟨33, _⟩ => ⟨S2000000x1, .f32⟩
  | .hbm, ⟨34, _⟩ => ⟨S2000000x1, .f32⟩
  | _, _ => ⟨S64x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  shapeCasts_S64x512x128_S32768x128 : S64x512x128.ShapeCasts S32768x128
  concatenates_S2x1000000_S2x1000000_S2x2000000_d1 : Shape.Concatenates [S2x1000000, S2x1000000] S2x2000000 1
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  gather_S32768x128_S2000000x1_S2000000x128_1_0_n_n_0_1_1128_wf : GatherDims.WF S32768x128 S2000000x1 S2000000x128 [1] [0] [] [0] [] 1 ![1, 128]
  dot_S2000000x128_S128x1_S2000000x1_1_0_0_1_n_n_wf : DotDims.WF S2000000x128 S128x1 S2000000x1 [1] [0] [0] [1] [] []

variable [Facts₀]

def gather_S32768x128_S2000000x1_S2000000x128_1_0_n_n_0_1_1128 : GatherDims S32768x128 S2000000x1 S2000000x128 where
  offsetDims := [1]
  collapsedSliceDims := [0]
  operandBatchingDims := []
  startIndicesBatchingDims := []
  startIndexMap := [0]
  indexVectorDim := 1
  sliceSizes := ![1, 128]
  wf := gather_S32768x128_S2000000x1_S2000000x128_1_0_n_n_0_1_1128_wf
def dot_S2000000x128_S128x1_S2000000x1_1_0_0_1_n_n : DotDims S2000000x128 S128x1 S2000000x1 where
  lhsContracting := [1]
  rhsContracting := [0]
  lhsNonContracting := [0]
  rhsNonContracting := [1]
  lhsBatch := []
  rhsBatch := []
  wf := dot_S2000000x128_S128x1_S2000000x1_1_0_0_1_n_n_wf

class Facts : Prop extends Facts₀ where

variable [Facts]
-- ==== Proof.KDefs.lean ====
/-
  Two arrays the idealized kernel program forms from its arguments before anything else, named once: the two endpoint
  arrays joined along the edge axis, and the node table viewed as a matrix of 32768 rows.
-/
import proofs.«413702_j31086973288662_3_alg».proof.KernelIdeal
import Idealize.ShloMosaic.Lib.ValueIdx

noncomputable section

namespace Cert.KHost

open Cert.KernelIdeal Idealize.ShloMosaic Idealize.ShloMosaic.TcCoe Idealize.ShloMosaic.ValueIdx Idealize.SL.Sem

variable {F : FTy → Type} [FloatOps F] [Cert.KernelIdeal.Facts]
variable (m : (ℓ : Loc nD τ sig) → Buf (Elt F) ℓ)

open Cert.KernelIdeal.Facts₀ in
/-- The two endpoint arrays joined along the edge axis: [2, 2000000]. -/
abbrev catK (c : Dev nD) : (⟨S2x2000000, .i32⟩ : BufTy).Contents (Elt F) :=
  concatenate S2x2000000 1 [⟨S2x1000000, m ((c : Thread nD τ).loc main_arg2)⟩, ⟨S2x1000000, m ((c : Thread nD τ).loc main_arg3)⟩] concatenates_S2x1000000_S2x1000000_S2x2000000_d1
open Cert.KernelIdeal.Facts₀ in
/-- The node table as the [32768, 128] matrix. -/
abbrev xfK (c : Dev nD) : (⟨S32768x128, .f32⟩ : BufTy).Contents (Elt F) :=
  shapeCast _ (m ((c : Thread nD τ).loc main_arg0)) shapeCasts_S64x512x128_S32768x128

end Cert.KHost

end
-- ==== Proof.Spec.lean ====
/-
  What both programs compute, per edge: the two endpoints of the edge each name a row of the node table (a negative
  endpoint counts from the table's end, and whatever is still outside the table is clamped to its first or last row);
  the two rows are multiplied entry by entry, weighted by the column of weights, summed over the 128 features, and the
  bias is added.  The definitions here are over literal shapes and name no program.
-/
import Idealize.ShloMosaic.Lib.ValueIdx
import Idealize.ShloMosaic.PureOps.Ideal

noncomputable section

open scoped BigOperators

namespace Cert.Spec

open Idealize.ShloMosaic Idealize.ShloMosaic.ValueIdx

/-- A negative index counts from the end of the 32768-row table: i + 32768 when i < 0 (signed), else i. -/
def wrapIdx (i : BitVec 32) : BitVec 32 :=
  Scalar.select (IntOp.cmpi .slt i 0#32) (IntOp.addi i 32768#32) i

/-- The wrapped index clamped into [0, 32767] by a signed maximum with 0 and then a signed minimum with 32767. -/
def clipIdx (i : BitVec 32) : BitVec 32 :=
  IntOp.minsi 32767#32 (IntOp.maxsi 0#32 (wrapIdx i))

/-- The row of the table a gather reads at the wrapped index: its signed value clamped into the table. -/
def rowOf (i : BitVec 32) : Fin 32768 :=
  ⟨min (wrapIdx i).toInt.toNat 32767, Nat.lt_succ_of_le (Nat.min_le_right _ _)⟩

/-- The value of edge e: the sum over the features k of (row of the first endpoint at k) · (row of the second endpoint
    at k) · (weight k), plus the bias.  The table is the [32768, 128] matrix, the endpoints the two rows of the
    [2, 2000000] index array. -/
def logit (xf : (⟨2, ![32768, 128]⟩ : Shape).Idx → EReal) (cat : (⟨2, ![2, 2000000]⟩ : Shape).Idx → BitVec 32)
    (W : (⟨2, ![128, 1]⟩ : Shape).Idx → EReal) (b : (⟨1, ![1]⟩ : Shape).Idx → EReal) (e : Fin 2000000) : EReal :=
  (∑ k : Fin 128, (xf (ix2 (rowOf (cat (ix2 (0 : Fin 2) e))) k) * xf (ix2 (rowOf (cat (ix2 (1 : Fin 2) e))) k))
      * W (ix2 k (0 : Fin 1)))
    + b (ix1 (0 : Fin 1))

end Cert.Spec

end
-- ==== Proof.KHost.lean ====
/-
  What five of the arrays the program's grid region finds hold at an entry, as functions of the program's argument
  arrays: the node table after its change of float format (at the ideal values, the table itself), the two endpoint
  columns (each endpoint wrapped from the table's end where negative and then clamped into the table), the weight column
  as a row, and the bias as a 1×1 matrix.  Then each window's block at a grid point as entries of those arrays.
-/
import proofs.«413702_j31086973288662_3_alg».proof.Proof.Gen.KernelIdeal.Frame
import proofs.«413702_j31086973288662_3_alg».proof.Proof.Spec
import proofs.«413702_j31086973288662_3_alg».proof.Proof.KDefs
import Idealize.ShloMosaic.Lib.ValueIdx
import Idealize.ShloMosaic.Lib.Pipeline.Value
import Idealize.ShloMosaic.Lib.StableHlo.Run
noncomputable section
namespace Cert.KHost
open Cert.KernelIdeal Cert.KernelIdeal.Gen Idealize.ShloMosaic Idealize.ShloMosaic.TcCoe Idealize.ShloMosaic.ValueIdx Idealize.SL.Sem
variable {F : FTy → Type} [FloatOps F]
variable (m : (ℓ : Loc nD τ sig) → Buf (Elt F) ℓ)

/-! ## The index chain over literal arrays -/

/-- The scalar constant w broadcast over the 2000000 edges is w at every edge. -/
theorem splat_apply (w : BitVec 32) (i : (⟨1, ![2000000]⟩ : Shape).Idx) :
    broadcastInDim S2000000 ![] bcast_S_S2000000 (constantI S_ 32 w) i = w := rfl

/-- Row 0 of a [2, 2000000] array — the slice [0:1, :] flattened to [2000000] — at edge e. -/
theorem row0_apply (y : (⟨2, ![2, 2000000]⟩ : Shape).Idx → BitVec 32) (e : Fin 2000000) :
    shapeCast S2000000 (extractStridedSlice S1x2000000 ![0, 0] y slices_S2x2000000_S1x2000000_0_0) shapeCasts_S1x2000000_S2000000 (ix1 e)
      = y (ix2 (0 : Fin 2) e) := by
  rw [shapeCast_apply (extractStridedSlice S1x2000000 ![0, 0] y slices_S2x2000000_S1x2000000_0_0) shapeCasts_S1x2000000_S2000000 (ix1 e) (ix2 (0 : Fin 1) e)
    (by rewrite [Shape.rowMajor_val_two, Shape.rowMajor_val_one]; show 0 * 2000000 + e.val = e.val; omega)]
  exact extractStridedSlice_apply ![0, 0] y slices_S2x2000000_S1x2000000_0_0 _ _ (fun a => match a with
    | ⟨0, _⟩ => by show (0 : Nat) = 0 + 0; rfl
    | ⟨1, _⟩ => by show e.val = 0 + e.val; omega)

/-- Row 1 likewise: the slice [1:2, :] flattened, at edge e. -/
theorem row1_apply (y : (⟨2, ![2, 2000000]⟩ : Shape).Idx → BitVec 32) (e : Fin 2000000) :
    shapeCast S2000000 (extractStridedSlice S1x2000000 ![1, 0] y slices_S2x2000000_S1x2000000_1_0) shapeCasts_S1x2000000_S2000000 (ix1 e)
      = y (ix2 (1 : Fin 2) e) := by
  rw [shapeCast_apply (extractStridedSlice S1x2000000 ![1, 0] y slices_S2x2000000_S1x2000000_1_0) shapeCasts_S1x2000000_S2000000 (ix1 e) (ix2 (0 : Fin 1) e)
    (by rewrite [Shape.rowMajor_val_two, Shape.rowMajor_val_one]; show 0 * 2000000 + e.val = e.val; omega)]
  exact extractStridedSlice_apply ![1, 0] y slices_S2x2000000_S1x2000000_1_0 _ _ (fun a => match a with
    | ⟨0, _⟩ => by show (1 : Nat) = 1 + 0; rfl
    | ⟨1, _⟩ => by show e.val = 0 + e.val; omega)

/-- The chain every endpoint goes through: i + 32768 where i is negative, then the signed maximum with 0, then the
    signed minimum with 32767, and the result as a [2000000, 1] column. -/
abbrev clipChain (z : (⟨1, ![2000000]⟩ : Shape).Idx → BitVec 32) : (⟨2, ![2000000, 1]⟩ : Shape).Idx → BitVec 32 :=
  shapeCast S2000000x1
    (minsi (broadcastInDim S2000000 ![] bcast_S_S2000000 (constantI S_ 32 32767#32))
      (maxsi (broadcastInDim S2000000 ![] bcast_S_S2000000 (constantI S_ 32 0#32))
        (select (cmpi .slt z (broadcastInDim S2000000 ![] bcast_S_S2000000 (constantI S_ 32 0#32)))
          (addi z (broadcastInDim S2000000 ![] bcast_S_S2000000 (constantI S_ 32 32768#32))) z)))
    shapeCasts_S2000000_S2000000x1

/-- The chain at edge e is the clipped index of the chain's input at e. -/
theorem clipChain_apply (z : (⟨1, ![2000000]⟩ : Shape).Idx → BitVec 32) (e : Fin 2000000) :
    clipChain z (ix2 e (0 : Fin 1)) = Cert.Spec.clipIdx (z (ix1 e)) := by
  unfold clipChain
  rw [shapeCast_apply _ shapeCasts_S2000000_S2000000x1 (ix2 e (0 : Fin 1)) (ix1 e)
    (by rewrite [Shape.rowMajor_val_one, Shape.rowMajor_val_two]; show e.val = e.val * 1 + 0; omega)]
  rfl

/-- A [128, 1] column read as a [1, 128] row: entry (0, d) of the row is entry (d, 0) of the column. -/
theorem colRow_apply {α : Type} (x : (⟨2, ![128, 1]⟩ : Shape).Idx → α) (d : Fin 128) :
    shapeCast S1x128 x shapeCasts_S128x1_S1x128 (ix2 (0 : Fin 1) d) = x (ix2 d (0 : Fin 1)) :=
  shapeCast_apply x shapeCasts_S128x1_S1x128 _ _
    (by rewrite [Shape.rowMajor_val_two, Shape.rowMajor_val_two]; show d.val * 1 + 0 = 0 * 128 + d.val; omega)

/-- A one-entry vector read as a 1×1 matrix. -/
theorem one_apply {α : Type} (x : (⟨1, ![1]⟩ : Shape).Idx → α) :
    shapeCast S1x1 x shapeCasts_S1_S1x1 (ix2 (0 : Fin 1) (0 : Fin 1)) = x (ix1 (0 : Fin 1)) :=
  shapeCast_apply x shapeCasts_S1_S1x1 _ _
    (by rewrite [Shape.rowMajor_val_one, Shape.rowMajor_val_two]; rfl)

/-! ## The arrays as composed terms -/

/-- The node table the region finds: the [32768, 128] matrix in the narrower float format. -/
theorem V_v1_term (c : Dev nD) : (V m c main_v1 : S32768x128.Idx → Elt F .bf16) = truncf .bf16 (xfK m c) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- The first endpoint column the region finds: the chain on row 0 of the joined endpoint array. -/
theorem V_v11_term (c : Dev nD) : (V m c main_v11 : S2000000x1.Idx → BitVec 32)
    = clipChain (shapeCast S2000000 (extractStridedSlice S1x2000000 ![0, 0] (catK m c) slices_S2x2000000_S1x2000000_0_0) shapeCasts_S1x2000000_S2000000) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  repeat (first | (rw [StableHlo.unary_result_ne]; rotate_left; decide) | (rw [StableHlo.reshape_result_ne]; rotate_left; decide))
  simp only [cast_eq, id_eq]
  rfl

/-- The second endpoint column: the chain on row 1. -/
theorem V_v20_term (c : Dev nD) : (V m c main_v20 : S2000000x1.Idx → BitVec 32)
    = clipChain (shapeCast S2000000 (extractStridedSlice S1x2000000 ![1, 0] (catK m c) slices_S2x2000000_S1x2000000_1_0) shapeCasts_S1x2000000_S2000000) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  repeat (first | (rw [StableHlo.unary_result_ne]; rotate_left; decide) | (rw [StableHlo.reshape_result_ne]; rotate_left; decide))
  simp only [cast_eq, id_eq]
  rfl

/-- The weights the region finds: the [128, 1] column as a [1, 128] row. -/
theorem V_v21_term (c : Dev nD) : (V m c main_v21 : S1x128.Idx → Elt F .f32)
    = shapeCast S1x128 (m ((c : Thread nD τ).loc main_arg4)) shapeCasts_S128x1_S1x128 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- The bias the region finds: the one-entry vector as a 1×1 matrix. -/
theorem V_v22_term (c : Dev nD) : (V m c main_v22 : S1x1.Idx → Elt F .f32)
    = shapeCast S1x1 (m ((c : Thread nD τ).loc main_arg5)) shapeCasts_S1_S1x1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-! ## The arrays at an entry -/

/-- At the ideal values a change of float format is the identity: the region finds the table itself. -/
theorem V_v1_apply (m : (ℓ : Loc nD τ sig) → Buf (Elt Ideal) ℓ) (c : Dev nD) (n : Fin 32768) (d : Fin 128) :
    (V (F := Ideal) m c main_v1 : S32768x128.Idx → EReal) (ix2 n d) = xfK (F := Ideal) m c (ix2 n d) := by
  rw [V_v1_term (F := Ideal) m c]
  rfl
/-- Entry e of the first endpoint column is the clipped index of edge e's first endpoint. -/
theorem V_v11_apply (c : Dev nD) (e : Fin 2000000) :
    (V m c main_v11 : S2000000x1.Idx → BitVec 32) (ix2 e (0 : Fin 1)) = Cert.Spec.clipIdx (catK m c (ix2 (0 : Fin 2) e)) := by
  rw [V_v11_term m c, clipChain_apply, row0_apply]
/-- Entry e of the second endpoint column is the clipped index of edge e's second endpoint. -/
theorem V_v20_apply (c : Dev nD) (e : Fin 2000000) :
    (V m c main_v20 : S2000000x1.Idx → BitVec 32) (ix2 e (0 : Fin 1)) = Cert.Spec.clipIdx (catK m c (ix2 (1 : Fin 2) e)) := by
  rw [V_v20_term m c, clipChain_apply, row1_apply]
/-- Entry (0, d) of the weight row is weight d. -/
theorem V_v21_apply (c : Dev nD) (d : Fin 128) :
    (V m c main_v21 : S1x128.Idx → Elt F .f32) (ix2 (0 : Fin 1) d) = m ((c : Thread nD τ).loc main_arg4) (ix2 d (0 : Fin 1)) := by
  rw [V_v21_term m c]
  exact colRow_apply _ d
/-- The 1×1 matrix's entry is the bias. -/
theorem V_v22_apply (c : Dev nD) :
    (V m c main_v22 : S1x1.Idx → Elt F .f32) (ix2 (0 : Fin 1) (0 : Fin 1)) = m ((c : Thread nD τ).loc main_arg5) (ix1 (0 : Fin 1)) := by
  rw [V_v22_term m c]
  exact one_apply _

/-! ## The windows' blocks as entries of those arrays -/

/-- Window 0's block at a grid point: the whole node table. -/
abbrev blk0 (c : Dev nD) (t : Fin cfg0.N) : Vec F S32768x128 .bf16 := iblk m c 0 t
/-- Window 1's block at a grid point: 3200 entries of the first endpoint column. -/
abbrev blk1 (c : Dev nD) (t : Fin cfg0.N) : Vec F S3200x1 .i32 := iblk m c 1 t
/-- Window 2's block at a grid point: 3200 entries of the second endpoint column. -/
abbrev blk2 (c : Dev nD) (t : Fin cfg0.N) : Vec F S3200x1 .i32 := iblk m c 2 t
/-- Window 3's block at a grid point: the whole weight row. -/
abbrev blk3 (c : Dev nD) (t : Fin cfg0.N) : Vec F S1x128 .f32 := iblk m c 3 t
/-- Window 4's block at a grid point: the bias. -/
abbrev blk4 (c : Dev nD) (t : Fin cfg0.N) : Vec F S1x1 .f32 := iblk m c 4 t

/-- Row r of block t of a column cut into 625 blocks of 3200 rows is row 3200 t + r, below 2000000. -/
theorem row_lt (t : Fin cfg0.N) (r : Fin 3200) : 3200 * t.val + r.val < 2000000 := by
  have h : t.val < 625 := lt_of_lt_of_eq t.isLt N_0
  have := r.isLt
  omega

/-- The two column windows' block index at grid point t is (t, 0). -/
theorem idx_facts : ∀ t : Fin cfg0.N, (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N, _)

/-- Entry r of window 1's block at grid point t is entry 3200 t + r of the first endpoint column. -/
theorem blk1_apply (c : Dev nD) (t : Fin cfg0.N) (r : Fin 3200) :
    blk1 m c t (ix2 r (0 : Fin 1)) = (V m c main_v11 : S2000000x1.Idx → BitVec 32) (ix2 ⟨3200 * t.val + r.val, row_lt t r⟩ (0 : Fin 1)) := by
  obtain ⟨⟨e0, e1⟩, _⟩ := idx_facts t
  unfold blk1 iblk
  rw [View.read_apply]
  show V m c main_v11 _ = V m c main_v11 _
  congr 1
  funext a
  apply Fin.ext
  match a with
  | ⟨0, _⟩ => show win0_1.index t (0 : Fin 2) * 3200 + 1 * r.val = 3200 * t.val + r.val; rw [e0]; omega
  | ⟨1, _⟩ => show win0_1.index t (1 : Fin 2) * 1 + 1 * 0 = 0; rw [e1]

/-- Entry r of window 2's block at grid point t is entry 3200 t + r of the second endpoint column. -/
theorem blk2_apply (c : Dev nD) (t : Fin cfg0.N) (r : Fin 3200) :
    blk2 m c t (ix2 r (0 : Fin 1)) = (V m c main_v20 : S2000000x1.Idx → BitVec 32) (ix2 ⟨3200 * t.val + r.val, row_lt t r⟩ (0 : Fin 1)) := by
  obtain ⟨_, e0, e1⟩ := idx_facts t
  unfold blk2 iblk
  rw [View.read_apply]
  show V m c main_v20 _ = V m c main_v20 _
  congr 1
  funext a
  apply Fin.ext
  match a with
  | ⟨0, _⟩ => show win0_2.index t (0 : Fin 2) * 3200 + 1 * r.val = 3200 * t.val + r.val; rw [e0]; omega
  | ⟨1, _⟩ => show win0_2.index t (1 : Fin 2) * 1 + 1 * 0 = 0; rw [e1]

/-- Window 0's block is the whole table at every grid point: its block index is (0, 0) and its block the table's size. -/
theorem blk0_eq (c : Dev nD) (t : Fin cfg0.N) : blk0 m c t = (V m c main_v1 : S32768x128.Idx → Elt F .bf16) := by
  funext x
  unfold blk0 iblk
  rw [View.read_apply]
  show V m c main_v1 _ = V m c main_v1 x
  congr 1
  funext a
  apply Fin.ext
  match a with
  | ⟨0, _⟩ => show 0 * 32768 + 1 * (x 0).val = (x 0).val; omega
  | ⟨1, _⟩ => show 0 * 128 + 1 * (x 1).val = (x 1).val; omega

/-- Window 3's block is the whole weight row at every grid point. -/
theorem blk3_eq (c : Dev nD) (t : Fin cfg0.N) : blk3 m c t = (V m c main_v21 : S1x128.Idx → Elt F .f32) := by
  funext x
  unfold blk3 iblk
  rw [View.read_apply]
  show V m c main_v21 _ = V m c main_v21 x
  congr 1
  funext a
  apply Fin.ext
  match a with
  | ⟨0, _⟩ => show 0 * 1 + 1 * (x 0).val = (x 0).val; omega
  | ⟨1, _⟩ => show 0 * 128 + 1 * (x 1).val = (x 1).val; omega

/-- Window 4's block is the bias at every grid point. -/
theorem blk4_eq (c : Dev nD) (t : Fin cfg0.N) : blk4 m c t = (V m c main_v22 : S1x1.Idx → Elt F .f32) := by
  funext x
  unfold blk4 iblk
  rw [View.read_apply]
  show V m c main_v22 _ = V m c main_v22 x
  congr 1
  funext a
  apply Fin.ext
  match a with
  | ⟨0, _⟩ => show 0 * 1 + 1 * (x 0).val = (x 0).val; omega
  | ⟨1, _⟩ => show 0 * 1 + 1 * (x 1).val = (x 1).val; omega

end Cert.KHost
end
-- ==== Proof.KBody.lean ====
/-
  The kernel's body at one grid point, as a value.  The body zeroes a [6400, 128] accumulator, then for each of the 64
  blocks of 512 table rows adds to it the product of a [6400, 512] selector by that block, and finally combines the
  accumulator's two halves.  Here: the accumulator after k blocks as a recursion on k, and the body's output block as
  the final combination applied to the accumulator after all 64.
-/
import proofs.«413702_j31086973288662_3_alg».proof.Proof.Gen.KernelIdeal.Frame
import Idealize.ShloMosaic.Lib.Pipeline.Value
import Idealize.ShloMosaic.Lib.ValueIdx

set_option maxRecDepth 16384

noncomputable section

namespace Cert.KBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The loop over the table's blocks makes exactly 64 trips. -/
theorem trips_eq : k0_t1_loop.trips = 64 := by decide

/-- The offsets (0, 0), however spelt, are the zero offsets. -/
theorem hz2 : (![0, 0] : Fin 2 → Nat) = fun _ => 0 := by
  funext a; match a with | ⟨0, _⟩ => rfl | ⟨1, _⟩ => rfl

/-- The accumulator after the first k blocks: zero before any, and after block k what the block's update makes of the
    accumulator before it and rows [512 k, 512 k + 512) of the table X; v0, v2 are the two columns of row indices. -/
def accAt (v0 v2 : Vec F S3200x1 .i32) (X : Vec F S32768x128 .bf16) : ℕ → Vec F S6400x128 .f32
  | 0 => k0_pay1
  | k + 1 =>
    if h : k < k0_t1_loop.trips then
      k0_pay2 v0 v2 ⟨k, h⟩
        (View.ld X (Rect.unit (s := S32768x128) (k0_off1 ⟨k, h⟩) S512x128.size (k0_off1_inb ⟨k, h⟩)))
        (accAt v0 v2 X k)
    else accAt v0 v2 X k

theorem accAt_zero (v0 v2 : Vec F S3200x1 .i32) (X : Vec F S32768x128 .bf16) : accAt v0 v2 X 0 = k0_pay1 := rfl

theorem accAt_succ (v0 v2 : Vec F S3200x1 .i32) (X : Vec F S32768x128 .bf16) (k : Fin k0_t1_loop.trips) :
    accAt v0 v2 X (k.val + 1)
      = k0_pay2 v0 v2 k (View.ld X (Rect.unit (s := S32768x128) (k0_off1 k) S512x128.size (k0_off1_inb k))) (accAt v0 v2 X k.val) := by
  rw [accAt, dif_pos k.isLt]

section Run
variable (c : Dev nD) (i : grid0.Coords) (arg1 : Memref sig .tc .vmem S32768x128 .bf16) (harg1 : arg1.IsWhole) (arg2 : Memref sig .tc .vmem S3200x1 .i32) (harg2 : arg2.IsWhole) (arg3 : Memref sig .tc .vmem S3200x1 .i32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x3200 .f32) (harg6 : arg6.IsWhole) (arg7 : Memref sig .tc .vmem S6400x128 .f32) (harg7 : arg7.IsWhole)

/-- What the accumulator's buffer holds when the loop is entered: the zero fill over whatever was there. -/
abbrev G0 : BufTy.Contents (Elt F) arg7.view.ty :=
  arg7.view.writes (Elt F) arg7.view.junk (kernelRun0_A.sl.HS0_1 (F := F))

/-- After k trips the accumulator's buffer reads as the recursion's k-th value: each trip stores, over the whole
    buffer, its update of what it finds there. -/
theorem read_pb (v0 v2 : Vec F S3200x1 .i32) (x0 : Vec F S32768x128 .bf16) :
    ∀ k : ℕ, k ≤ k0_t1_loop.trips →
      arg7.view.read (Elt F) (arg7.view.writes (Elt F) (G0 (F := F) arg7)
        (pb_k0_t1 (F := F) Variants.none c none i arg1 harg1 arg2 harg2 arg3 harg3 arg4 harg4 arg5 harg5 arg6 harg6 arg7 harg7 v0 v2 (harg1.unread x0) (G0 (F := F) arg7) k))
      = accAt v0 v2 x0 k
  | 0, _ => by
    rw [pb_k0_t1.eq_1, View.writes_nil]
    unfold G0 kernelRun0_A.sl.HS0_1
    rw [View.read_writes_junk_eq_canon, View.canon_unit_zero hz2]
    rfl
  | k + 1, hk => by
    have hlt : k < k0_t1_loop.trips := hk
    have ih := read_pb v0 v2 x0 k (Nat.le_of_lt hlt)
    have e := pb_k0_t1_succ (F := F) Variants.none c none i arg1 harg1 arg2 harg2 arg3 harg3 arg4 harg4 arg5 harg5 arg6 harg6 arg7 harg7 v0 v2 (harg1.unread x0) (G0 (F := F) arg7) ⟨k, hlt⟩
    rw [show k + 1 = (⟨k, hlt⟩ : Fin k0_t1_loop.trips).val + 1 from rfl, e, View.writes_append, accAt_succ]
    unfold tripL_k0_t1 trip_k0_t1
    dsimp only
    rw [View.read_writes_eq_canon _ _ _ (fun y => ⟨_, List.mem_singleton_self _, View.mem_set_unit_zero hz2 inb_S6400x128_S6400x128_0_0 y⟩),
      View.canon_unit_zero hz2]
    simp only [View.readAt_eq_ld, harg1.read_unread, View.ld_unit_zero (S := S6400x128) hz2]
    rw [ih]

/-- The body's output block: the final combination of the two halves of the accumulator after all the trips, the
    weight row and the bias. -/
theorem out_eq (x0 : Vec F S32768x128 .bf16) (x1 x2 : Vec F S3200x1 .i32) (x3 : Vec F S1x128 .f32) (x4 : Vec F S1x1 .f32) :
    out0_A_5 c i arg1 harg1 arg2 harg2 arg3 harg3 arg4 harg4 arg5 harg5 arg6 harg6 arg7 harg7 x0 x1 x2 x3 x4
      = k0_pay3
          (View.ld (accAt x1 x2 x0 k0_t1_loop.trips) (Rect.unit (s := S6400x128) ![0, 0] S3200x128.size inb_S6400x128_S3200x128_0_0))
          (View.ld (accAt x1 x2 x0 k0_t1_loop.trips) (Rect.unit (s := S6400x128) ![3200, 0] S3200x128.size inb_S6400x128_S3200x128_3200_0))
          x3 x4 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  rw [View.canon_unit_zero hz2]
  unfold kernelRun0_A.sl.v10 kernelRun0_A.sl.v11
  rw [View.writes_append]
  simp only [View.readAt_eq_ld, harg2.read_unread, harg3.read_unread, harg4.read_unread, harg5.read_unread,
    View.ld_unit_zero (S := S3200x1) hz2, View.ld_unit_zero (S := S1x128) hz2, View.ld_unit_zero (S := S1x1) hz2]
  have e := read_pb (F := F) c i arg1 harg1 arg2 harg2 arg3 harg3 arg4 harg4 arg5 harg5 arg6 harg6 arg7 harg7 x1 x2 x0 k0_t1_loop.trips (le_refl _)
  simp only [G0] at e
  rw [show Scf.trips k0_t1_loop.lb k0_t1_loop.ub k0_t1_loop.st = k0_t1_loop.trips from rfl, e]

end Run

end Cert.KBody

end
-- ==== Proof.SpecLemmas.lean ====
/-
  Facts about 32-bit two's-complement words (the clamp of a signed index into a table of 32768 rows, the value of a
  widened one-bit compare, a column index formed without wrapping) and about one block of a one-hot weighted sum of
  extended reals.  Nothing here names a program.
-/
import proofs.«413702_j31086973288662_3_alg».proof.Proof.Spec
import Idealize.ShloMosaic.Lib.ValueIdx
import Idealize.ShloMosaic.Lib.StableHlo.Predicate
import Idealize.ShloMosaic.PureOps.Ideal.Laws
import Idealize.ShloMosaic.Lib.Scf
noncomputable section
open scoped BigOperators
namespace Cert.Spec
open Idealize.ShloMosaic

/-- Clamping a word into [0, 32767] by a signed maximum with 0 and then a signed minimum with 32767 gives the word whose
    value is the signed value of the input clamped into [0, 32767]: a negative signed value goes to 0, a signed value
    above 32767 goes to 32767, and a signed value in between is its own unsigned value. -/
theorem clamp_eq (w : BitVec 32) :
    IntOp.minsi 32767#32 (IntOp.maxsi 0#32 w) = BitVec.ofNat 32 (min w.toInt.toNat 32767) := by
  have h0 : (0#32).toInt = 0 := by decide
  have h1 : (32767#32).toInt = 32767 := by decide
  unfold IntOp.minsi IntOp.maxsi
  by_cases hneg : w.toInt < 0
  · have e1 : w.slt 0#32 = true := by
      unfold BitVec.slt; rw [h0]; exact decide_eq_true hneg
    have e2 : ¬ ((32767#32).slt 0#32 = true) := by decide
    rw [if_pos e1, if_neg e2]
    have : min w.toInt.toNat 32767 = 0 := by omega
    rw [this]
  · have e1 : ¬ (w.slt 0#32 = true) := by
      unfold BitVec.slt; rw [h0]; simpa using hneg
    rw [if_neg e1]
    by_cases hbig : (32767 : Int) < w.toInt
    · have e2 : (32767#32).slt w = true := by
        unfold BitVec.slt; rw [h1]; exact decide_eq_true hbig
      rw [if_pos e2]
      have : min w.toInt.toNat 32767 = 32767 := by omega
      rw [this]
    · have e2 : ¬ ((32767#32).slt w = true) := by
        unfold BitVec.slt; rw [h1]; simpa using hbig
      rw [if_neg e2]
      have hw : w.toInt = (w.toNat : Int) := by
        rw [BitVec.toInt_eq_toNat_cond] at hneg hbig ⊢
        split at hneg <;> omega
      have : min w.toInt.toNat 32767 = w.toNat := by omega
      rw [this, BitVec.ofNat_toNat, BitVec.setWidth_eq]

/-- The clamp by signed maximum and minimum is the clamp of the signed value of the wrapped index. -/
theorem clipIdx_eq (i : BitVec 32) : clipIdx i = BitVec.ofNat 32 (rowOf i).val := by
  unfold clipIdx rowOf
  exact clamp_eq _

/-- The clamped index, read as a natural number, is the row: the row is below 32768 < 2^32. -/
theorem clipIdx_toNat (i : BitVec 32) : (clipIdx i).toNat = (rowOf i).val := by
  rw [clipIdx_eq, BitVec.toNat_ofNat]
  have := (rowOf i).isLt
  omega

/-- A one-bit equality compare, zero-extended to 32 bits and read as a signed integer, is 1 when the words are equal
    and 0 otherwise. -/
theorem onehot_val (a b : BitVec 32) : (((BitVec.setWidth 32 (IntOp.cmpi .eq a b)).toInt : ℝ) : EReal) = if a = b then 1 else 0 := by
  by_cases h : a = b
  · have : IntOp.cmpi .eq a b = 1#1 := StableHlo.Predicate.cmpi_eq_iff.mpr h
    rw [this, if_pos h]
    have : (BitVec.setWidth 32 1#1).toInt = 1 := by decide
    rw [this]; simp
  · have : IntOp.cmpi .eq a b = 0#1 := by
      rcases BitVec.eq_zero_or_eq_one (IntOp.cmpi .eq a b) with h0 | h1
      · exact h0
      · exact absurd (StableHlo.Predicate.cmpi_eq_iff.mp h1) h
    rw [this, if_neg h]
    have : (BitVec.setWidth 32 0#1).toInt = 0 := by decide
    rw [this]; simp

/-- For c < 512 and k < 64 the word c + ((0 + (0 + k·1)·1)·512) is the word of 512·k + c: nothing wraps, since
    512·k + c < 32768 < 2^32. -/
theorem colWord_eq (c k : ℕ) (hc : c < 512) (hk : k < 64) : IntOp.addi (BitVec.ofNat 32 c) (Scalar.muli (Scalar.addi 0#32 (Scalar.muli (Scf.iv 0#32 1#32 k) 1#32)) 512#32) = BitVec.ofNat 32 (512 * k + c) := by
  unfold IntOp.addi Scalar.muli Scalar.addi IntOp.muli IntOp.addi Scf.iv
  apply BitVec.eq_of_toNat_eq
  simp only [BitVec.toNat_add, BitVec.toNat_mul, BitVec.toNat_ofNat]
  omega

/-- Two naturals below 2^32 give the same 32-bit word exactly when they are equal. -/
theorem ofNat_eq_ofNat_iff (a b : ℕ) (ha : a < 2 ^ 32) (hb : b < 2 ^ 32) : (BitVec.ofNat 32 a = BitVec.ofNat 32 b) ↔ a = b := by
  constructor
  · intro h
    have := congrArg BitVec.toNat h
    simp only [BitVec.toNat_ofNat] at this
    omega
  · intro h; rw [h]

/-- One block of the one-hot accumulation.  If n < 512·k every weight is 0 and the sum adds nothing; if
    512·k ≤ n < 512·(k+1) the only non-zero weight is at c = n - 512·k, where it is 1, and the sum is X n; if
    n ≥ 512·(k+1) every weight is 0 again.  Only 0·a = 0, 1·a = a and 0 + a = a are used, which hold for every
    extended real. -/
theorem onehot_step (X : ℕ → EReal) (n k : ℕ) (oh : Fin 512 → EReal) (hoh : ∀ c : Fin 512, oh c = if n = 512 * k + c.val then 1 else 0) :
    (if n < 512 * k then X n else 0) + ∑ c : Fin 512, oh c * X (512 * k + c.val) = if n < 512 * (k + 1) then X n else 0 := by
  by_cases h1 : n < 512 * k
  · have hz : ∀ c : Fin 512, oh c * X (512 * k + c.val) = 0 := by
      intro c
      have : ¬ n = 512 * k + c.val := by omega
      rw [hoh c, if_neg this, zero_mul]
    have h2 : n < 512 * (k + 1) := by omega
    rw [if_pos h1, if_pos h2, Finset.sum_eq_zero (fun c _ => hz c), add_zero]
  · rw [if_neg h1, zero_add]
    by_cases h2 : n < 512 * (k + 1)
    · rw [if_pos h2]
      have hc : n - 512 * k < 512 := by omega
      rw [Finset.sum_eq_single (⟨n - 512 * k, hc⟩ : Fin 512)]
      · have : n = 512 * k + (n - 512 * k) := by omega
        rw [hoh, if_pos (by simpa using this), one_mul]
        congr 1; simp; omega
      · intro c _ hne
        have : ¬ n = 512 * k + c.val := by
          intro he; apply hne; apply Fin.ext; simp; omega
        rw [hoh c, if_neg this, zero_mul]
      · intro h; exact absurd (Finset.mem_univ _) h
    · rw [if_neg h2]
      apply Finset.sum_eq_zero
      intro c _
      have : ¬ n = 512 * k + c.val := by have := c.isLt; omega
      rw [hoh c, if_neg this, zero_mul]

end Cert.Spec
end
-- ==== Proof.KPay.lean ====
/-
  The three values the kernel body stores, read at one entry, at the ideal values (a float is an extended real, a
  product is ·, a sum is +, the narrowing and widening of a float are the identity, and an integer converted to a float
  is its signed value).

  * The fill is the zero array: every entry is 0.
  * One block's update of the accumulator.  Stack the two [3200, 1] columns of row indices into one [6400, 1] column
    (idxcat).  For block k the selector S is the [6400, 512] array with S (r, c) = 1 when idxcat r is the word
    512·k + c and 0 otherwise: it is formed as a one-bit equality compare of idxcat r against c + 512·k, widened to
    32 bits and converted as a signed integer.  The update at (r, d) is the old entry plus the matrix product of S with
    the [512, 128] block, that is, the old entry plus the sum over c < 512 of S (r, c) · block (c, d).
  * The result row.  At edge e it is the sum over the 128 features d of (first (e, d) · second (e, d)) · weight (0, d),
    plus the bias (0, 0): a product of two [3200, 128] arrays entry by entry, times the weight row broadcast down the
    rows, summed along each row, reshaped to a column, the bias added, and the column transposed to a row.

  Every non-pointwise operation is read at an entry by one small lemma stated over variables: the column cast
  [a] → [a, 1], the broadcasts [1, 1] → [a, 1] and [a, 1] → [a, b], the sum along a row, the matrix product, and the
  stack of two columns.
-/
import proofs.«413702_j31086973288662_3_alg».proof.Proof.Gen.KernelIdeal.Skeleton
import proofs.«413702_j31086973288662_3_alg».proof.Proof.Spec
import proofs.«413702_j31086973288662_3_alg».proof.Proof.SpecLemmas
import Idealize.ShloMosaic.Lib.ValueIdx
import Idealize.ShloMosaic.Lib.Pipeline.Value
import Idealize.ShloMosaic.Lib.ValueLayout
import Idealize.ShloMosaic.PureOps.Ideal.Laws
noncomputable section
open scoped BigOperators
namespace Cert.KPay
open Cert.KernelIdeal Cert.KernelIdeal.Gen Idealize.ShloMosaic Idealize.ShloMosaic.ValueIdx

/-- Row r of the stacked [6400, 1] column of row indices: the first 3200 rows are the first column, the next 3200 the second. -/
def idxcat (v0 v2 : Vec Ideal S3200x1 .i32) (r : Fin 6400) : BitVec 32 :=
  if h : r.val < 3200 then v0 (ix2 (⟨r.val, h⟩ : Fin 3200) (0 : Fin 1))
  else v2 (ix2 (⟨r.val - 3200, by have := r.isLt; omega⟩ : Fin 3200) (0 : Fin 1))

/-- The fill: a broadcast of the zero word, which is the extended real 0. -/
theorem pay1_apply (j : S6400x128.Idx) : k0_pay1 (F := Ideal) j = 0 := by
  unfold k0_pay1
  rw [shapeCast_self]
  show Ideal.ofBits .f32 0x00000000#32 = 0
  exact Ideal.ofBits_zero_f32

/-- An [a] array cast to the column [a, 1] reads, at (e, u), the operand at e. -/
theorem shapeCast_a_a1_apply {α : Type} {a : ℕ} (x : (⟨1, ![a]⟩ : Shape).Idx → α) (h : (⟨1, ![a]⟩ : Shape).ShapeCasts ⟨2, ![a, 1]⟩)
    (e : Fin a) (u : Fin 1) : shapeCast ⟨2, ![a, 1]⟩ x h (ix2 e u) = x (ix1 e) :=
  shapeCast_apply x h _ _ (by
    have hu : u.val = 0 := by omega
    rw [Shape.rowMajor_val_two, Shape.rowMajor_val_one]
    show e.val = e.val * 1 + u.val
    rw [hu, Nat.mul_one, Nat.add_zero])

/-- A [1, 1] array broadcast to the column [a, 1] reads its one entry everywhere. -/
theorem broadcastTo_11_a1_apply {α : Type} {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The sum over the second axis of an [a, b] array, read at e, is the sum over d of the entries (e, d). -/
theorem rowSum_apply {a b : ℕ} (x : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (e : Fin a) :
    multiReduction (F := Ideal) .add [1] ⟨1, ![a]⟩ x 0x00000000#32 h hφ hacc (ix1 e) = ∑ d : Fin b, x (ix2 e d) := by
  rw [Ideal.multiReduction_add_single]
  refine Finset.sum_congr rfl fun d _ => congrArg x ?_
  funext c
  match c with
  | ⟨0, _⟩ => rfl
  | ⟨1, _⟩ => rfl

/-! ## The matmul of the selector block with the table block, read at an entry -/

/-- The left operand's index at output index i and contraction index q: row i 0, column q 0. -/
theorem lhs_mm_0 (i : S6400x128.Idx) (q : dot_S6400x512_S512x128_S6400x128_1_0_0_1_n_n.contr.Idx) :
    (dot_S6400x512_S512x128_S6400x128_1_0_0_1_n_n.lhsIdx i q 0).val = (i 0).val := by
  unfold DotDims.lhsIdx
  rw [dif_neg (show ¬(0 : Fin S6400x512.rank) ∈ dot_S6400x512_S512x128_S6400x128_1_0_0_1_n_n.lhsBatch by decide), dif_pos (show (0 : Fin S6400x512.rank) ∈ dot_S6400x512_S512x128_S6400x128_1_0_0_1_n_n.lhsNonContracting by decide)]
  rfl
theorem lhs_mm_1 (i : S6400x128.Idx) (q : dot_S6400x512_S512x128_S6400x128_1_0_0_1_n_n.contr.Idx) :
    (dot_S6400x512_S512x128_S6400x128_1_0_0_1_n_n.lhsIdx i q 1).val = (q ⟨0, by decide⟩).val :=
  dot_S6400x512_S512x128_S6400x128_1_0_0_1_n_n.lhsIdx_val_of_single rfl i q
/-- The right operand's index at output index i and contraction index q: row q 0, column i 1. -/
theorem rhs_mm_0 (i : S6400x128.Idx) (q : dot_S6400x512_S512x128_S6400x128_1_0_0_1_n_n.contr.Idx) :
    (dot_S6400x512_S512x128_S6400x128_1_0_0_1_n_n.rhsIdx i q 0).val = (q ⟨0, by decide⟩).val :=
  dot_S6400x512_S512x128_S6400x128_1_0_0_1_n_n.rhsIdx_val_of_single rfl i q
theorem rhs_mm_1 (i : S6400x128.Idx) (q : dot_S6400x512_S512x128_S6400x128_1_0_0_1_n_n.contr.Idx) :
    (dot_S6400x512_S512x128_S6400x128_1_0_0_1_n_n.rhsIdx i q 1).val = (i 1).val := by
  unfold DotDims.rhsIdx
  rw [dif_neg (show ¬(1 : Fin S512x128.rank) ∈ dot_S6400x512_S512x128_S6400x128_1_0_0_1_n_n.rhsBatch by decide), dif_pos (show (1 : Fin S512x128.rank) ∈ dot_S6400x512_S512x128_S6400x128_1_0_0_1_n_n.rhsNonContracting by decide)]
  rfl

/-- The [6400, 512] by [512, 128] product accumulated into zero, read at (r, d): the sum over c of A (r, c) · B (c, d). -/
theorem mm_apply (A : FVec Ideal S6400x512 .bf16) (B : FVec Ideal S512x128 .bf16) (r : Fin 6400) (d : Fin 128) :
    matmul dot_S6400x512_S512x128_S6400x128_1_0_0_1_n_n none A B (constant (F := Ideal) S6400x128 .f32 0x00000000#32) (ix2 r d)
      = ∑ c : Fin 512, A (ix2 r c) * B (ix2 c d) := by
  simp only [matmul]
  rw [Ideal.matmul_constant_zero_apply, ← Equiv.sum_comp (ValueIdx.contrEquiv1 dot_S6400x512_S512x128_S6400x128_1_0_0_1_n_n 512 rfl rfl).symm]
  refine Finset.sum_congr rfl fun k _ => ?_
  have hk := ValueIdx.contrEquiv1_symm_val dot_S6400x512_S512x128_S6400x128_1_0_0_1_n_n 512 rfl rfl k
  have el : dot_S6400x512_S512x128_S6400x128_1_0_0_1_n_n.lhsIdx (ix2 r d) ((ValueIdx.contrEquiv1 dot_S6400x512_S512x128_S6400x128_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S6400x512_S512x128_S6400x128_1_0_0_1_n_n.rhsIdx (ix2 r d) ((ValueIdx.contrEquiv1 dot_S6400x512_S512x128_S6400x128_1_0_0_1_n_n 512 rfl rfl).symm k) = ix2 k d := funext fun a => Fin.ext (by
    match a with
    | ⟨0, _⟩ => exact (rhs_mm_0 _ _).trans hk
    | ⟨1, _⟩ => exact rhs_mm_1 _ _)
  rw [el, er]

/-- A column [a, 1] broadcast to [a, b] reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two [3200, 1] columns stacked along the rows, read at row r: the first column at r when r < 3200, the second at r - 3200 otherwise. -/
theorem stack_apply {α : Type} (x₁ x₂ : S3200x1.Idx → α) (h : Shape.Concatenates [S3200x1, S3200x1] S6400x1 0) (r : Fin 6400) :
    concatenate S6400x1 0 [⟨S3200x1, x₁⟩, ⟨S3200x1, x₂⟩] h (ix2 r (0 : Fin 1))
      = if hr : r.val < 3200 then x₁ (ix2 (⟨r.val, hr⟩ : Fin 3200) (0 : Fin 1))
        else x₂ (ix2 (⟨r.val - 3200, by have := r.isLt; omega⟩ : Fin 3200) (0 : Fin 1)) := by
  split
  · next hr =>
    exact concatenate_pair_apply_left (0 : Fin S6400x1.rank) x₁ x₂ h (ix2 r (0 : Fin 1)) rfl (ix2 (⟨r.val, hr⟩ : Fin 3200) (0 : Fin 1))
      (fun b => match b with | ⟨0, _⟩ => rfl | ⟨1, _⟩ => rfl)
  · next hr =>
    exact concatenate_pair_apply_right (0 : Fin S6400x1.rank) x₁ x₂ h (ix2 r (0 : Fin 1)) rfl rfl
      (ix2 (⟨r.val - 3200, by have := r.isLt; omega⟩ : Fin 3200) (0 : Fin 1))
      (fun b hb => match b, hb with | ⟨0, _⟩, hb => absurd rfl hb | ⟨1, _⟩, _ => rfl)
      (by show r.val - 3200 + 3200 = r.val; omega)

/-- An equality test between words depends only on the two words. -/
theorem ite_eq_congr {a b a' b' : BitVec 32} (h1 : a = a') (h2 : b = b') :
    (if a = b then (1 : EReal) else 0) = if a' = b' then 1 else 0 := by rw [h1, h2]

/-- One block's update at (r, d): the old entry plus the sum over c of [idxcat r = 512·k + c] · block (c, d).  The
    loop runs at most 64 times, so 512·k + c is below 32768 and the column word c + 512·k does not wrap. -/
theorem pay2_apply (v0 v2 : Vec Ideal S3200x1 .i32) (k : Fin k0_t1_loop.trips) (v30 : Vec Ideal S512x128 .bf16) (v42 : Vec Ideal S6400x128 .f32) (r : Fin 6400) (d : Fin 128) :
    k0_pay2 (F := Ideal) v0 v2 k v30 v42 (ix2 r d)
      = v42 (ix2 r d) + ∑ c : Fin 512, (if idxcat v0 v2 r = BitVec.ofNat 32 (512 * k.val + c.val) then (1 : EReal) else 0) * v30 (ix2 c d) := by
  have hk : k.val < 64 := lt_of_lt_of_le k.isLt k0_t1_abs.2.1
  unfold k0_pay2
  dsimp only
  simp only [shapeCast_self]
  rw [addf_apply]
  congr 1
  refine (mm_apply _ _ r d).trans ?_
  refine Finset.sum_congr rfl fun c _ => ?_
  congr 1
  rw [truncf_apply, sitofp_apply, extui_apply]
  show (((BitVec.setWidth 32 (IntOp.cmpi .eq _ _)).toInt : ℝ) : EReal) = _
  rw [Cert.Spec.onehot_val]
  refine ite_eq_congr ?_ ?_
  · refine (broadcastTo_a1_ab_apply _ _ r c).trans ?_
    refine (stack_apply _ _ _ r).trans ?_
    unfold idxcat
    simp only [shapeCast_self]
  · refine (broadcastTo_1b_ab_apply _ _ r c).trans ?_
    show IntOp.addi (iota .tc S1x512 32 [1] iota_S1x512_d1_w32 (ix2 (0 : Fin 1) c)) _ = _
    rw [iota_single_apply]
    exact Cert.Spec.colWord_eq c.val k.val c.isLt hk

/-- The result row at edge e: the weighted sum over the features of the product of the two rows, plus the bias. -/
theorem pay3_apply (v10 v11 : Vec Ideal S3200x128 .f32) (v13 : Vec Ideal S1x128 .f32) (v19 : Vec Ideal S1x1 .f32) (e : Fin 3200) :
    k0_pay3 (F := Ideal) v10 v11 v13 v19 (ix2 (0 : Fin 1) e)
      = (∑ d : Fin 128, (v10 (ix2 e d) * v11 (ix2 e d)) * v13 (ix2 (0 : Fin 1) d)) + v19 (ix2 (0 : Fin 1) (0 : Fin 1)) := by
  unfold k0_pay3
  dsimp only
  rw [transpose_ix2_apply, addf_apply, shapeCast_a_a1_apply, broadcastTo_11_a1_apply]
  simp only [shapeCast_self]
  congr 1
  refine (rowSum_apply _ reduces_S3200x128_S3200 _ _ e).trans ?_
  refine Finset.sum_congr rfl fun d _ => ?_
  rw [mulf_apply, mulf_apply, broadcastTo_1b_ab_apply]

end Cert.KPay
end
-- ==== Proof.KAcc.lean ====
/-
  The accumulator of the blocked one-hot gather, read at one entry, at the ideal values (extended reals).

  The table has 32768 rows in 64 blocks of 512.  Row r of the stacked index column names the table row n (as a 32-bit
  word).  Block k's update adds to the accumulator's entry (r, d) the sum over c < 512 of [n = 512·k + c] · table
  (512·k + c, d): the block's load starts at row 512·k, and two numbers below 2^32 are equal as words exactly when they
  are equal.  So, by induction on k, after the first k blocks the entry (r, d) is table (n, d) if n < 512·k and 0
  otherwise: the zero fill for k = 0, and for the step at most one term of the block's sum is non-zero, the one at
  c = n - 512·k when 512·k ≤ n < 512·(k + 1).  After all 64 blocks, n < 32768 = 512·64 and the entry is table (n, d).
-/
import proofs.«413702_j31086973288662_3_alg».proof.Proof.KBody
import proofs.«413702_j31086973288662_3_alg».proof.Proof.KPay
import proofs.«413702_j31086973288662_3_alg».proof.Proof.SpecLemmas
import Idealize.ShloMosaic.Lib.ValueIdx
import Idealize.ShloMosaic.Lib.Pipeline.Value

noncomputable section

open scoped BigOperators

namespace Cert.KAcc

open Cert.KernelIdeal Cert.KernelIdeal.Gen Cert.KBody Cert.KPay
open Idealize.ShloMosaic Idealize.ShloMosaic.ValueIdx

/-- Trip k of the loop reads the table's rows from 512·k on, all 128 columns. -/
theorem off1_eq (k : Fin k0_t1_loop.trips) : k0_off1 k = ![512 * k.val, 0] := k0_off1_eq k

/-- Block k of the table, read at (c, d), is the table's row 512·k + c at column d. -/
theorem blockK_apply (X : Vec Ideal S32768x128 .bf16) (k : Fin k0_t1_loop.trips) (c : Fin 512) (d : Fin 128)
    (h : 512 * k.val + c.val < 32768) :
    View.ld X (Rect.unit (s := S32768x128) (k0_off1 k) S512x128.size (k0_off1_inb k)) (ix2 c d)
      = X (ix2 (⟨512 * k.val + c.val, h⟩ : Fin 32768) d) := by
  show X _ = X _
  refine congrArg X (funext fun ax => Fin.ext ?_)
  match ax with
  | ⟨0, _⟩ =>
    show (k0_off1 k) 0 + 1 * c.val = 512 * k.val + c.val
    rw [off1_eq]
    show 512 * k.val + 1 * c.val = 512 * k.val + c.val
    rw [Nat.one_mul]
  | ⟨1, _⟩ =>
    show (k0_off1 k) 1 + 1 * d.val = d.val
    rw [off1_eq]
    show 0 + 1 * d.val = d.val
    rw [Nat.one_mul, Nat.zero_add]

/-- After the first k blocks, row r of the accumulator holds the table's row n if n lies in those blocks, and 0 if not
    yet: n is the row index that row r of the stacked index column names. -/
theorem accAt_partial (v0 v2 : Vec Ideal S3200x1 .i32) (X : Vec Ideal S32768x128 .bf16) (r : Fin 6400) (d : Fin 128)
    (n : Fin 32768) (hn : idxcat v0 v2 r = BitVec.ofNat 32 n.val) :
    ∀ k : ℕ, k ≤ k0_t1_loop.trips →
      accAt (F := Ideal) v0 v2 X k (ix2 r d) = if n.val < 512 * k then X (ix2 n d) else 0 := by
  intro k
  induction k with
  | zero =>
    intro _
    rw [accAt_zero, pay1_apply, if_neg (by omega)]
  | succ k ih =>
    intro hk
    have hlt : k < k0_t1_loop.trips := hk
    have h64 : k < 64 := by have := trips_eq; omega
    have hnlt := n.isLt
    have ih' := ih (Nat.le_of_lt hlt)
    rw [show k + 1 = (⟨k, hlt⟩ : Fin k0_t1_loop.trips).val + 1 from rfl, accAt_succ, pay2_apply]
    show accAt (F := Ideal) v0 v2 X k (ix2 r d) + _ = _
    rw [ih']
    -- the table's column d as a function of the row number, 0 beyond the table
    let Xf : ℕ → EReal := fun j => if hj : j < 32768 then X (ix2 (⟨j, hj⟩ : Fin 32768) d) else 0
    have hXn : X (ix2 n d) = Xf n.val := by
      show _ = if hj : n.val < 32768 then X (ix2 (⟨n.val, hj⟩ : Fin 32768) d) else 0
      rw [dif_pos hnlt]
    have hsum : ∀ c : Fin 512,
        (if idxcat v0 v2 r = BitVec.ofNat 32 (512 * k + c.val) then (1 : EReal) else 0)
            * View.ld X (Rect.unit (s := S32768x128) (k0_off1 ⟨k, hlt⟩) S512x128.size (k0_off1_inb ⟨k, hlt⟩)) (ix2 c d)
          = (if n.val = 512 * k + c.val then (1 : EReal) else 0) * Xf (512 * k + c.val) := by
      intro c
      have hc := c.isLt
      have hb : 512 * k + c.val < 32768 := by omega
      have e1 : (idxcat v0 v2 r = BitVec.ofNat 32 (512 * k + c.val)) ↔ n.val = 512 * k + c.val := by
        rw [hn]
        exact Cert.Spec.ofNat_eq_ofNat_iff _ _ (by omega) (by omega)
      have e2 := blockK_apply X ⟨k, hlt⟩ c d hb
      have e3 : Xf (512 * k + c.val) = X (ix2 (⟨512 * k + c.val, hb⟩ : Fin 32768) d) := by
        show (if hj : 512 * k + c.val < 32768 then X (ix2 (⟨512 * k + c.val, hj⟩ : Fin 32768) d) else 0) = _
        rw [dif_pos hb]
      rw [e2, e3]
      by_cases hh : n.val = 512 * k + c.val
      · rw [if_pos (e1.mpr hh), if_pos hh]
      · rw [if_neg (fun h' => hh (e1.mp h')), if_neg hh]
    rw [Finset.sum_congr rfl (fun c _ => hsum c), hXn]
    exact Cert.Spec.onehot_step Xf n.val k _ (fun c => rfl)

/-- After all 64 blocks, row r of the accumulator is the table's row n. -/
theorem accAt_apply (v0 v2 : Vec Ideal S3200x1 .i32) (X : Vec Ideal S32768x128 .bf16) (r : Fin 6400) (d : Fin 128)
    (n : Fin 32768) (hn : idxcat v0 v2 r = BitVec.ofNat 32 n.val) :
    accAt (F := Ideal) v0 v2 X k0_t1_loop.trips (ix2 r d) = X (ix2 n d) := by
  rw [accAt_partial v0 v2 X r d n hn k0_t1_loop.trips (le_refl _), if_pos]
  have := trips_eq
  have := n.isLt
  omega

end Cert.KAcc

end
-- ==== Proof.KPoint.lean ====
/-
  The kernel's output block at one grid point, at the ideal values.  At grid point t the body finds rows
  [3200 t, 3200 t + 3200) of the two clamped endpoint columns, the whole node table, the weight row and the bias.  Row e
  of the accumulator's first half is the table's row named by the first endpoint of edge 3200 t + e, row e of its
  second half the row named by the second endpoint; the output's entry e is the sum over the features of their
  product times the weights, plus the bias: the common value of edge 3200 t + e.
-/
import proofs.«413702_j31086973288662_3_alg».proof.Proof.Gen.KernelIdeal.Frame
import proofs.«413702_j31086973288662_3_alg».proof.Proof.KDefs
import proofs.«413702_j31086973288662_3_alg».proof.Proof.KHost
import proofs.«413702_j31086973288662_3_alg».proof.Proof.KBody
import proofs.«413702_j31086973288662_3_alg».proof.Proof.KPay
import proofs.«413702_j31086973288662_3_alg».proof.Proof.KAcc
import proofs.«413702_j31086973288662_3_alg».proof.Proof.SpecLemmas
import proofs.«413702_j31086973288662_3_alg».proof.Proof.Spec

set_option maxRecDepth 16384

noncomputable section

open scoped BigOperators

namespace Cert.KPoint

open Cert.KernelIdeal Cert.KernelIdeal.Gen Cert.KHost Cert.KBody Cert.KPay Cert.KAcc
open Idealize.ShloMosaic Idealize.ShloMosaic.TcCoe Idealize.ShloMosaic.ValueIdx Idealize.SL.Sem

variable (m : (ℓ : Loc nD τ sig) → Buf (Elt Ideal) ℓ)

/-- Entry e of block t is edge 3200 t + e, one of the 2000000 edges (t < 625, e < 3200). -/
theorem edge_lt (t : Fin cfg0.N) (e : Fin 3200) : 3200 * t.val + e.val < 2000000 := by
  have h : t.val < grid0.N := t.isLt
  rw [N_0] at h; have := e.isLt; omega

/-- The table's block at any grid point, read at a row: the reshaped table's row. -/
theorem hb0 (c : Dev nD) (t : Fin cfg0.N) (n : Fin 32768) (d : Fin 128) :
    blk0 m c t (ix2 n d) = xfK (F := Ideal) m c (ix2 n d) :=
  (congrFun (blk0_eq m c t) (ix2 n d)).trans (V_v1_apply m c n d)

/-- Row e of the first endpoint column's block at grid point t: the clamped first endpoint of edge 3200 t + e. -/
theorem hb1 (c : Dev nD) (t : Fin cfg0.N) (e : Fin 3200) :
    blk1 m c t (ix2 e (0 : Fin 1))
      = Cert.Spec.clipIdx (catK (F := Ideal) m c (ix2 (0 : Fin 2) (⟨3200 * t.val + e.val, edge_lt t e⟩ : Fin 2000000))) :=
  (blk1_apply m c t e).trans (V_v11_apply m c ⟨3200 * t.val + e.val, edge_lt t e⟩)

/-- Row e of the second endpoint column's block at grid point t: the clamped second endpoint of edge 3200 t + e. -/
theorem hb2 (c : Dev nD) (t : Fin cfg0.N) (e : Fin 3200) :
    blk2 m c t (ix2 e (0 : Fin 1))
      = Cert.Spec.clipIdx (catK (F := Ideal) m c (ix2 (1 : Fin 2) (⟨3200 * t.val + e.val, edge_lt t e⟩ : Fin 2000000))) :=
  (blk2_apply m c t e).trans (V_v20_apply m c ⟨3200 * t.val + e.val, edge_lt t e⟩)

/-- The weight row's block: weight d. -/
theorem hb3 (c : Dev nD) (t : Fin cfg0.N) (d : Fin 128) :
    blk3 m c t (ix2 (0 : Fin 1) d) = m ((c : Thread nD τ).loc main_arg4) (ix2 d (0 : Fin 1)) :=
  (congrFun (blk3_eq m c t) (ix2 (0 : Fin 1) d)).trans (V_v21_apply m c d)

/-- The bias's block: the bias. -/
theorem hb4 (c : Dev nD) (t : Fin cfg0.N) :
    blk4 m c t (ix2 (0 : Fin 1) (0 : Fin 1)) = m ((c : Thread nD τ).loc main_arg5) (ix1 (0 : Fin 1)) :=
  (congrFun (blk4_eq m c t) (ix2 (0 : Fin 1) (0 : Fin 1))).trans (V_v22_apply m c)

/-- The body's output at point t in terms of the named blocks. -/
theorem outsAt0_blocks (c : Dev nD) (t : Fin cfg0.N) :
    (outsAt0 (F := Ideal) m c t : S1x3200.Idx → EReal)
      = k0_pay3 (F := Ideal)
          (View.ld (accAt (F := Ideal) (blk1 m c t) (blk2 m c t) (blk0 m c t) k0_t1_loop.trips) (Rect.unit (s := S6400x128) ![0, 0] S3200x128.size inb_S6400x128_S3200x128_0_0))
          (View.ld (accAt (F := Ideal) (blk1 m c t) (blk2 m c t) (blk0 m c t) k0_t1_loop.trips) (Rect.unit (s := S6400x128) ![3200, 0] S3200x128.size inb_S6400x128_S3200x128_3200_0))
          (blk3 m c t) (blk4 m c t) := by
  unfold outsAt0
  exact out_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (blk0 m c t) (blk1 m c t) (blk2 m c t) (blk3 m c t) (blk4 m c t)

/-- The first half of the accumulator, loaded: row e. -/
theorem ld_top (A : Vec Ideal S6400x128 .f32) (e : Fin 3200) (d : Fin 128) :
    View.ld A (Rect.unit (s := S6400x128) ![0, 0] S3200x128.size inb_S6400x128_S3200x128_0_0) (ix2 e d)
      = A (ix2 (⟨e.val, Nat.lt_trans e.isLt (by decide)⟩ : Fin 6400) d) := by
  show A _ = A _
  refine congrArg A (funext fun ax => Fin.ext ?_)
  match ax with
  | ⟨0, _⟩ => show 0 + 1 * e.val = e.val; omega
  | ⟨1, _⟩ => show 0 + 1 * d.val = d.val; omega

/-- The second half of the accumulator, loaded: row 3200 + e. -/
theorem ld_bot (A : Vec Ideal S6400x128 .f32) (e : Fin 3200) (d : Fin 128) :
    View.ld A (Rect.unit (s := S6400x128) ![3200, 0] S3200x128.size inb_S6400x128_S3200x128_3200_0) (ix2 e d)
      = A (ix2 (⟨3200 + e.val, by have := e.isLt; omega⟩ : Fin 6400) d) := by
  show A _ = A _
  refine congrArg A (funext fun ax => Fin.ext ?_)
  match ax with
  | ⟨0, _⟩ => show 3200 + 1 * e.val = 3200 + e.val; omega
  | ⟨1, _⟩ => show 0 + 1 * d.val = d.val; omega

/-- Row e of the stacked index column is row e of the first column … -/
theorem idxcat_top (v0 v2 : Vec Ideal S3200x1 .i32) (e : Fin 3200) :
    idxcat v0 v2 (⟨e.val, Nat.lt_trans e.isLt (by decide)⟩ : Fin 6400) = v0 (ix2 e (0 : Fin 1)) := by
  unfold idxcat
  rw [dif_pos (show (⟨e.val, Nat.lt_trans e.isLt (by decide)⟩ : Fin 6400).val < 3200 from e.isLt)]

/-- … and row 3200 + e is row e of the second. -/
theorem idxcat_bot (v0 v2 : Vec Ideal S3200x1 .i32) (e : Fin 3200) :
    idxcat v0 v2 (⟨3200 + e.val, by have := e.isLt; omega⟩ : Fin 6400) = v2 (ix2 e (0 : Fin 1)) := by
  unfold idxcat
  rw [dif_neg (show ¬ (3200 + e.val < 3200) by omega)]
  exact congrArg (fun q : Fin 3200 => v2 (ix2 q (0 : Fin 1))) (Fin.ext (by show 3200 + e.val - 3200 = e.val; omega))

/-- Entry (0, e) of what the body leaves in the output window's buffer at grid point t. -/
theorem outsAt0_apply (c : Dev nD) (t : Fin cfg0.N) (e : Fin 3200) :
    (outsAt0 (F := Ideal) m c t : S1x3200.Idx → EReal) (ix2 (0 : Fin 1) e)
      = Cert.Spec.logit (xfK (F := Ideal) m c) (catK (F := Ideal) m c)
          (m ((c : Thread nD τ).loc main_arg4)) (m ((c : Thread nD τ).loc main_arg5))
          ⟨3200 * t.val + e.val, edge_lt t e⟩ := by
  refine (congrFun (outsAt0_blocks m c t) (ix2 (0 : Fin 1) e)).trans ?_
  rw [pay3_apply, hb4]
  unfold Cert.Spec.logit
  refine congrArg₂ HAdd.hAdd ?_ rfl
  refine Finset.sum_congr rfl fun d _ => ?_
  rw [hb3, ld_top, ld_bot]
  rw [accAt_apply (blk1 m c t) (blk2 m c t) (blk0 m c t) _ d
        (Cert.Spec.rowOf (catK (F := Ideal) m c (ix2 (0 : Fin 2) (⟨3200 * t.val + e.val, edge_lt t e⟩ : Fin 2000000))))
        (by rw [idxcat_top, hb1, Cert.Spec.clipIdx_eq]),
      accAt_apply (blk1 m c t) (blk2 m c t) (blk0 m c t) _ d
        (Cert.Spec.rowOf (catK (F := Ideal) m c (ix2 (1 : Fin 2) (⟨3200 * t.val + e.val, edge_lt t e⟩ : Fin 2000000))))
        (by rw [idxcat_bot, hb2, Cert.Spec.clipIdx_eq]),
      hb0, hb0]

end Cert.KPoint

end
-- ==== Proof.KRun.lean ====
/-
  The idealized kernel program's run, read as values.

  The region runs over 625 grid points; grid point t writes back the [1, 3200] block of columns [3200·t, 3200·t + 3200)
  of the [1, 2000000] result array, and entry (0, e) of that block is the common value of edge 3200·t + e.  So each
  grid point writes its block of ONE function of the argument arrays, the blocks cover the array (column j lies in the
  block of grid point j / 3200), and the array ends holding that function.  The one operation after the region
  transposes the array into the [2000000, 1] result, whose entry (e, 0) is therefore the common value of edge e; no
  operation after the region writes an argument.
-/
import proofs.«413702_j31086973288662_3_alg».proof.Proof.KPoint
import Idealize.ShloMosaic.Lib.Pipeline.Value
import Idealize.ShloMosaic.Lib.ValueLayout
import Idealize.ShloMosaic.Lib.StableHlo.Run

set_option maxRecDepth 16384

noncomputable section

namespace Cert.KRun

open Cert.KernelIdeal Cert.KernelIdeal.Gen Cert.KHost Cert.KPoint
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The kernel's [1, 2000000] result array as one function of the argument arrays: entry (0, e) is the value of edge e. -/
abbrev Gk (c : Dev nD) : S1x2000000.Idx → EReal := fun j =>
  Cert.Spec.logit (xfK (F := Ideal) m c) (catK (F := Ideal) m c) (m ((c : Thread nD τ).loc main_arg4)) (m ((c : Thread nD τ).loc main_arg5)) (j 1)

/-- The output window's index map, decided over the grid: grid point t names block (0, t). -/
theorem idx_facts5 : ∀ t : Fin cfg0.N, win0_5.index t (0 : Fin 2) = 0 ∧ win0_5.index t (1 : Fin 2) = t.val :=
  (by decide +kernel : ∀ t : Fin grid0.N, _)

/-- What grid point t writes back is block t of that function. -/
theorem flushed5_eq (c : Dev nD) (t : Fin cfg0.N) :
    (dats m 0 c).flushed 5 t = ((cfg0.win 5).blk t).view.read (Elt Ideal) (Gk m c) := by
  show (cfg0.win 5).cut (grid0.coords t) ((dats m 0 c).after 5 t) = _
  rw [after0_5]
  obtain ⟨e0, e1⟩ := idx_facts5 t
  funext j
  have hj0 : (j 0).val < 1 := (j 0).isLt
  have hj1 : (j 1).val < 3200 := (j 1).isLt
  have hx : (cfg0.win 5).xinj (grid0.coords t) j = ix2 (0 : Fin 1) (⟨(j 1).val, hj1⟩ : Fin 3200) := by
    funext a; apply Fin.ext
    match a with
    | ⟨0, _⟩ => show (j 0).val = 0; omega
    | ⟨1, _⟩ => rfl
  show (outsAt0 (F := Ideal) m c t : S1x3200.Idx → EReal) ((cfg0.win 5).xinj (grid0.coords t) j)
    = Gk m c (((cfg0.win 5).blk t).view.emb j)
  rw [hx, outsAt0_apply]
  refine congrArg (Cert.Spec.logit (xfK (F := Ideal) m c) (catK (F := Ideal) m c) (m ((c : Thread nD τ).loc main_arg4)) (m ((c : Thread nD τ).loc main_arg5))) (Fin.ext ?_)
  show 3200 * t.val + (j 1).val = win0_5.index t (1 : Fin 2) * 3200 + 1 * (j 1).val
  omega

/-- An index of the array is in grid point t's block iff each coordinate is in the block's range on its axis. -/
theorem mem_blk5 (t : Fin cfg0.N) (i : S1x2000000.Idx) :
    i ∈ ((cfg0.win 5).blk t).view.set ↔ ∀ a : Fin 2, win0_5.index t a * S1x3200.size a ≤ (i a).val ∧ (i a).val < win0_5.index t a * S1x3200.size a + S1x3200.size a := by
  show i ∈ ((View.whole main_v23).slice (win0_5.rect t)).set ↔ _
  rw [View.set_slice_whole, Rect.mem_set_unit]
  exact Iff.rfl

/-- Every column j of the array lies in the block of grid point j / 3200. -/
theorem cover5 (i : S1x2000000.Idx) :
    ∃ t : Fin cfg0.N, (cfg0.win 5).flush t = true ∧ i ∈ ((cfg0.win 5).blk t).view.set := by
  have hi0 : (i 0).val < 1 := (i 0).isLt
  have hi1 : (i 1).val < 2000000 := (i 1).isLt
  have hN : grid0.N = 625 := N_0
  have hq : (i 1).val / 3200 < cfg0.N := by
    show (i 1).val / 3200 < grid0.N
    rw [hN]; omega
  obtain ⟨t, ht⟩ : ∃ t : Fin cfg0.N, t.val = (i 1).val / 3200 := ⟨⟨(i 1).val / 3200, hq⟩, rfl⟩
  obtain ⟨e0, e1⟩ := idx_facts5 t
  refine ⟨t, flush0_5 t, ?_⟩
  rw [mem_blk5]
  intro a
  match a with
  | ⟨0, _⟩ =>
    show win0_5.index t (0 : Fin 2) * 1 ≤ (i 0).val ∧ (i 0).val < win0_5.index t (0 : Fin 2) * 1 + 1
    omega
  | ⟨1, _⟩ =>
    show win0_5.index t (1 : Fin 2) * 3200 ≤ (i 1).val ∧ (i 1).val < win0_5.index t (1 : Fin 2) * 3200 + 3200
    omega

/-- The result array after the region. -/
theorem final5 (c : Dev nD) : (dats m 0 c).arrAt 5 cfg0.N = Gk m c :=
  (dats m 0 c).arrAt_eq_of_cover 5 (Gk m c) (fun t _ => flushed5_eq m c t) cover5

/-- The program's result after the transpose that follows the region. -/
theorem tail_v24 (c : Dev nD) :
    Pipeline.afterTail₀ cfgs (dats m) 0 (V0 m) [hostOps1] c main_v24
      = fun j : S2000000x1.Idx => Cert.Spec.logit (xfK (F := Ideal) m c) (catK (F := Ideal) m c) (m ((c : Thread nD τ).loc main_arg4)) (m ((c : Thread nD τ).loc main_arg5)) (j 0) := by
  unfold Pipeline.afterTail₀
  show StableHlo.after hostOps1 _ (Proc.devRef .tc main_v24) = _
  after_results
  have hA : Pipeline.withArrays (cfgs 0).spec c (V0 m c) (fun w => (dats m 0 c).arrAt w (cfgs 0).N) (Proc.devRef .tc main_v23) = Gk m c :=
    (Pipeline.withArrays_arr spec0 winFacts0.arr_inj c _ _ 5).trans (final5 m c)
  rw [hA]
  funext j
  have h1 : (j 1 : Fin 1) = (0 : Fin 1) := Subsingleton.elim (α := Fin 1) _ _
  have hj : j = ix2 (j 0 : Fin 2000000) (0 : Fin 1) := (eq_ix2 j).trans (congrArg (ix2 (j 0)) h1)
  refine (congrArg (transpose S2000000x1 [1, 0] (Gk m c) _) hj).trans ?_
  exact transpose_ix2_apply (Gk m c) _ (j 0) (0 : Fin 1)

/-- The idealized kernel program's run: it ends with its result at the common value of every edge, its arguments unchanged. -/
theorem run : θ_run defs (onTc (τ := τ) (main (F := Ideal))) ⟨m, fun _ => 0, ρ⟩ fun r => ∀ c : Dev nD,
      r.2.mem ((c : Thread nD τ).loc main_v24) = (fun j : S2000000x1.Idx => Cert.Spec.logit (xfK (F := Ideal) m c) (catK (F := Ideal) m c) (m ((c : Thread nD τ).loc main_arg4)) (m ((c : Thread nD τ).loc main_arg5)) (j 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).2 main_v24 (Pipeline.mem_restRefs_of main_v24 (by decide) (by decide))).trans (tail_v24 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KRun

end
-- ==== Proof.RefValue.lean ====
/-
  The reference program's result read at an entry.

  A row gather from the [32768, 128] table at a [2000000, 1] array of start indices reads, at (e, k), the table at
  (r, k), where r is the start index of e read as a signed integer and clamped into [0, 32767].  With that, the
  reference's entry (e, 0) is the sum over the 128 features of the product of the two gathered rows weighted by the
  column of weights, plus the bias: the shared closed form.
-/
import proofs.«413702_j31086973288662_3_alg».proof.Proof.Gen.ReferenceIdeal.Read
import proofs.«413702_j31086973288662_3_alg».proof.Proof.Spec
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx

/-- The row gather read at (e, k): on the row axis the operand index is the start index of e, signed and clamped to
    [0, 32768 - 1] (the axis is collapsed, with slice size 1, and is the one axis the start index names); on the
    feature axis the start is 0 and the offset coordinate is k. -/
theorem gather_row_apply {α : Type} (x : S32768x128.Idx → α) (idx : IVec S2000000x1 32) (e : Fin 2000000) (k : Fin 128) :
    Host.gather gather_S32768x128_S2000000x1_S2000000x128_1_0_n_n_0_1_1128 x idx (ix2 e k)
      = x (ix2 (⟨min (idx (ix2 e (0 : Fin 1))).toInt.toNat 32767, Nat.lt_succ_of_le (Nat.min_le_right _ _)⟩ : Fin 32768) k) := by
  unfold Host.gather
  congr 1
  funext a
  refine Fin.ext ?_
  match a with
  | ⟨0, _⟩ =>
    show gather_S32768x128_S2000000x1_S2000000x128_1_0_n_n_0_1_1128.start (ix2 e k) idx 0
        + gather_S32768x128_S2000000x1_S2000000x128_1_0_n_n_0_1_1128.batchCoord (ix2 e k) 0
        + gather_S32768x128_S2000000x1_S2000000x128_1_0_n_n_0_1_1128.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32768x128_S2000000x1_S2000000x128_1_0_n_n_0_1_1128.startIndexMap from List.mem_singleton.mpr rfl)]
    have hsi : gather_S32768x128_S2000000x1_S2000000x128_1_0_n_n_0_1_1128.siIdx (ix2 e k)
        ⟨List.idxOf (0 : Fin 2) gather_S32768x128_S2000000x1_S2000000x128_1_0_n_n_0_1_1128.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S32768x128_S2000000x1_S2000000x128_1_0_n_n_0_1_1128.start (ix2 e k) idx 1
        + gather_S32768x128_S2000000x1_S2000000x128_1_0_n_n_0_1_1128.batchCoord (ix2 e k) 1
        + gather_S32768x128_S2000000x1_S2000000x128_1_0_n_n_0_1_1128.offCoord (ix2 e k) 1 = _
    rw [GatherDims.batchCoord_eq_zero _ _ _ List.not_mem_nil]
    unfold GatherDims.start
    rw [dif_neg (show ¬ (1 : Fin 2) ∈ gather_S32768x128_S2000000x1_S2000000x128_1_0_n_n_0_1_1128.startIndexMap by decide)]
    simp only [Nat.add_zero, Nat.zero_add]
    rfl

/-- The first endpoint's start index at edge e is the wrapped entry (0, e) of the joined index array. -/
theorem v9_apply (x2 x3 : (⟨S2x1000000, .i32⟩ : BufTy).Contents (Elt Ideal)) (e : Fin 2000000) :
    val_main_v9 (F := Ideal) x2 x3 (ix2 e (0 : Fin 1))
      = Cert.Spec.wrapIdx (val_main_v1 (F := Ideal) x2 x3 (ix2 (0 : Fin 2) e)) := by
  have hi : idx_main_v2 (idx_main_v3 (idx_main_v9 (ix2 e (0 : Fin 1)))) = ix2 (0 : Fin 2) e :=
    funext fun a => Fin.ext (by
      match a with
      | ⟨0, _⟩ => rfl
      | ⟨1, _⟩ => exact Nat.mod_eq_of_lt e.isLt)
  rw [val_main_v9_apply, val_main_v8_apply, val_main_v5_apply, val_main_v7_apply, val_main_v4_apply, val_main_c_apply,
    val_main_v6_apply, val_main_c_0_apply, val_main_v3_apply, val_main_v2_apply, hi]
  rfl

/-- The second endpoint's start index at edge e is the wrapped entry (1, e) of the joined index array. -/
theorem v18_apply (x2 x3 : (⟨S2x1000000, .i32⟩ : BufTy).Contents (Elt Ideal)) (e : Fin 2000000) :
    val_main_v18 (F := Ideal) x2 x3 (ix2 e (0 : Fin 1))
      = Cert.Spec.wrapIdx (val_main_v1 (F := Ideal) x2 x3 (ix2 (1 : Fin 2) e)) := by
  have hi : idx_main_v11 (idx_main_v12 (idx_main_v18 (ix2 e (0 : Fin 1)))) = ix2 (1 : Fin 2) e :=
    funext fun a => Fin.ext (by
      match a with
      | ⟨0, _⟩ => rfl
      | ⟨1, _⟩ => exact Nat.mod_eq_of_lt e.isLt)
  rw [val_main_v18_apply, val_main_v17_apply, val_main_v14_apply, val_main_v16_apply, val_main_v13_apply, val_main_c_1_apply,
    val_main_v15_apply, val_main_c_2_apply, val_main_v12_apply, val_main_v11_apply, hi]
  rfl

/-- The reference's entry (e, 0): the contraction over the 128 features of the product of the two gathered rows with
    the weights, plus the bias, each gathered row being the table's row named by the wrapped and clamped endpoint. -/
theorem ref_apply (x0 : (⟨S64x512x128, .f32⟩ : BufTy).Contents (Elt Ideal)) (x2 x3 : (⟨S2x1000000, .i32⟩ : BufTy).Contents (Elt Ideal)) (x4 : (⟨S128x1, .f32⟩ : BufTy).Contents (Elt Ideal)) (x5 : (⟨S1, .f32⟩ : BufTy).Contents (Elt Ideal)) (e : Fin 2000000) :
    val_main_v24 (F := Ideal) x0 x2 x3 x4 x5 (ix2 e (0 : Fin 1))
      = Cert.Spec.logit (val_main_v0 (F := Ideal) x0) (val_main_v1 (F := Ideal) x2 x3) x4 x5 e := by
  have hb : idx_main_v22 (idx_main_v23 (ix2 e (0 : Fin 1))) = ix1 (0 : Fin 1) :=
    funext fun a => Fin.ext (by match a with | ⟨0, _⟩ => rfl)
  rw [val_main_v24_apply, val_main_v21_apply, val_main_v23_apply, val_main_v22_apply, hb, Ideal.addf_def]
  unfold Cert.Spec.logit
  refine congrArg₂ HAdd.hAdd ?_ rfl
  refine Finset.sum_congr rfl fun k _ => ?_
  have hl : lidx_main_v21 (ix2 e (0 : Fin 1)) k = ix2 e k :=
    funext fun a => Fin.ext (by match a with | ⟨0, _⟩ => rfl | ⟨1, _⟩ => rfl)
  have hr : ridx_main_v21 (ix2 e (0 : Fin 1)) k = ix2 k (0 : Fin 1) :=
    funext fun a => Fin.ext (by match a with | ⟨0, _⟩ => rfl | ⟨1, _⟩ => rfl)
  rw [hl, hr, val_main_v20_apply, Ideal.mulf_def]
  unfold val_main_v10 val_main_v19
  rw [gather_row_apply, gather_row_apply, v9_apply, v18_apply]
  unfold Cert.Spec.rowOf
  rfl

/-- As whole arrays: every index of the [2000000, 1] result is (e, 0), its second coordinate ranging over one value. -/
theorem ref_eq (x0 : (⟨S64x512x128, .f32⟩ : BufTy).Contents (Elt Ideal)) (x2 x3 : (⟨S2x1000000, .i32⟩ : BufTy).Contents (Elt Ideal)) (x4 : (⟨S128x1, .f32⟩ : BufTy).Contents (Elt Ideal)) (x5 : (⟨S1, .f32⟩ : BufTy).Contents (Elt Ideal)) :
    val_main_v24 (F := Ideal) x0 x2 x3 x4 x5 = fun j => Cert.Spec.logit (val_main_v0 (F := Ideal) x0) (val_main_v1 (F := Ideal) x2 x3) x4 x5 (j 0) := by
  funext j
  have h1 : (j 1 : Fin 1) = (0 : Fin 1) := Subsingleton.elim (α := Fin 1) _ _
  have hj : j = ix2 (j 0) (0 : Fin 1) := (eq_ix2 j).trans (congrArg (ix2 (j 0)) h1)
  exact (congrArg (val_main_v24 (F := Ideal) x0 x2 x3 x4 x5) hj).trans (ref_apply x0 x2 x3 x4 x5 (j 0))

end Cert.RefValue

end
-- ==== Proof.lean ====
/-
  The kernel scores each of 2000000 edges of a graph over a table of 32768 node rows with 128 features: an edge's two
  endpoints each name a row (a negative endpoint counts from the table's end, and whatever is still outside the table is
  clamped to its first or last row); the two rows are multiplied entry by entry, weighted by a column of 128 weights,
  summed, and a bias is added.  The reference does this with two row gathers, a product and a contraction.  The kernel
  does it 3200 edges at a time: it stacks the two clamped endpoint columns, and for each of the 64 blocks of 512 table
  rows forms the 0/1 selector "row r's endpoint is table row 512 k + c" and adds selector · block to an accumulator; a
  row of the selector has at most one 1 across all the blocks, exactly one since the endpoint is clamped into the
  table, so the accumulator ends holding the named rows themselves, and the product, the weighting and the sum follow.
  Over the extended reals the two agree at every edge for every input: only 0 · a = 0, 1 · a = a and the associativity
  and commutativity of + are used, so the finiteness of the inputs is never needed.

  The pieces: the common value of an edge (Spec); the clamp by signed maximum and minimum as the clamp of the signed
  value, and one block of the one-hot sum (SpecLemmas); the reference's result at an edge (RefValue); the kernel body's
  accumulator as a recursion over the blocks and its output as the final combination (KBody), the three stored values
  at an entry (KPay), the accumulator's rows (KAcc), the arrays the program forms before the kernel's launch at an
  entry and the blocks cut from them (KHost), the output block at a grid point (KPoint), and the result array after
  all the grid points and the final transpose (KRun).  Here the claims are assembled: each program runs and leaves its
  arguments unchanged, nothing was rewritten in idealizing the kernel, and the two idealized programs end with the
  same result from memories that agree on the arguments.
-/
import proofs.«413702_j31086973288662_3_alg».proof.Defs
import proofs.«413702_j31086973288662_3_alg».proof.Proof.Gen.Kernel
import proofs.«413702_j31086973288662_3_alg».proof.Proof.Gen.Kernel.Skeleton
import proofs.«413702_j31086973288662_3_alg».proof.Proof.Gen.Kernel.Loops
import proofs.«413702_j31086973288662_3_alg».proof.Proof.Gen.Kernel.Launch
import proofs.«413702_j31086973288662_3_alg».proof.Proof.Gen.Kernel.Points
import proofs.«413702_j31086973288662_3_alg».proof.Proof.Gen.Kernel.Frame
import proofs.«413702_j31086973288662_3_alg».proof.Proof.Gen.KernelIdeal
import proofs.«413702_j31086973288662_3_alg».proof.Proof.Gen.KernelIdeal.Skeleton
import proofs.«413702_j31086973288662_3_alg».proof.Proof.Gen.KernelIdeal.Loops
import proofs.«413702_j31086973288662_3_alg».proof.Proof.Gen.KernelIdeal.Launch
import proofs.«413702_j31086973288662_3_alg».proof.Proof.Gen.KernelIdeal.Points
import proofs.«413702_j31086973288662_3_alg».proof.Proof.Gen.KernelIdeal.Frame
import proofs.«413702_j31086973288662_3_alg».proof.Proof.Gen.ReferenceIdeal
import proofs.«413702_j31086973288662_3_alg».proof.Proof.Gen.ReferenceIdeal.Run
import proofs.«413702_j31086973288662_3_alg».proof.Proof.Gen.ReferenceIdeal.Read
import proofs.«413702_j31086973288662_3_alg».proof.Proof.Gen.Pre_finite_inputs
import proofs.«413702_j31086973288662_3_alg».proof.Proof.KRun
import proofs.«413702_j31086973288662_3_alg».proof.Proof.RefValue
import Idealize.ShloMosaic.Adequacy
import Idealize.ShloMosaic.Init

noncomputable section

namespace Cert.Proof

open Idealize.ShloMosaic Idealize.ShloMosaic.TcCoe Idealize.SL.Sem

/-- The kernel program, at the word level, runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The idealized reference runs to its operations' composed term and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments the two idealized programs end with one result: at every edge the
    common value, of the kernel's arguments on one side and of the reference's, which are the same arrays, on the other;
    the reshaped table and the joined endpoint array are the same terms in both programs. -/
theorem algebraic : Cert.algebraic_KernelIdeal_ReferenceIdeal := by
  intro m ρ m' ρ' _ hagree
  refine ⟨fun c => (fun j : Cert.KernelIdeal.S2000000x1.Idx =>
      Cert.Spec.logit (Cert.KHost.xfK (F := Ideal) m c) (Cert.KHost.catK (F := Ideal) m c)
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (j 0)),
    Cert.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.RefValue.ref_eq, (hagree c).1, (hagree c).2.2.1, (hagree c).2.2.2.1,
    (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
